-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn {F : FTy → Type} [FloatOps F] (main_arg0 : FVec F S8192x2048 .f32) (main_arg1 : FVec F S8x2048x8192 .f32) (main_arg2 : FVec F S8x4096x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x4096x2048 .f32 := Host.absf main_arg2
  let main_cst_2 : FVec F S_ .f32 := constant S_ .f32 0x7F800000#32
  let main_v10 : FVec F S8x4096x2048 .f32 := broadcastInDim S8x4096x2048 ![] bcast_S_S8x4096x2048 main_cst_2
  let main_v11 : IVec S8x4096x2048 1 := cmpf .olt main_v9 main_v10
  let main_c_3 : IVec S_ 1 := constantI S_ 1 1#1
  let main_v12 : IVec S_ 1 := (fun x v => Host.reduce IntOp.andi x v reducesTo_S8x4096x2048_S_d0_1_2 h_S_) main_v11 main_c_3
  let main_v13 : IVec S_ 1 := andi main_v8 main_v12
  main_v13
-- ==== Kernel.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S1x512x2048 : Shape := ⟨3, ![1, 512, 2048]⟩
abbrev S1x2048x256 : Shape := ⟨3, ![1, 2048, 256]⟩
abbrev S1x256x2048 : Shape := ⟨3, ![1, 256, 2048]⟩
abbrev S512x2048 : Shape := ⟨2, ![512, 2048]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x2048, .f32⟩
  | .hbm, ⟨5, _⟩ => ⟨S8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1x512x2048, .f32⟩
  | .local _ .vmem, ⟨9, _⟩ => ⟨S1x512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S8192x2048_S8x1024x2048 : S8192x2048.ShapeCasts S8x1024x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S512x2048_S1x512x2048 : S512x2048.ShapeCasts S1x512x2048
  shapeCasts_S8x1024x2048_S8192x2048 : S8x1024x2048.ShapeCasts S8192x2048
  dot_S512x2048_S2048x256_S512x256_1_0_0_1_n_n_wf : DotDims.WF S512x2048 S2048x256 S512x256 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x1024x2048.size a
  hwx0_0 : ∀ i : grid0.Coords, EltTy.bits .f32 = 32 ∨ (Rect.block (s := S8x1024x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x8192.size a
  hwx0_1 : ∀ i : grid0.Coords, EltTy.bits .f32 = 32 ∨ (Rect.block (s := S8x2048x8192) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x8192.size a
  hwx0_2 : ∀ i : grid0.Coords, EltTy.bits .f32 = 32 ∨ (Rect.block (s := S8x2048x8192) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x4096x2048.size a
  hwx0_3 : ∀ i : grid0.Coords, EltTy.bits .f32 = 32 ∨ (Rect.block (s := S8x4096x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x1024x2048.size a
  hwx0_4 : ∀ i : grid0.Coords, EltTy.bits .f32 = 32 ∨ (Rect.block (s := S8x1024x2048) S1x512x2048.size (cc0_transform_4 i) (hinb0_4 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S8x1024x8192 : Shape := ⟨3, ![8, 1024, 8192]⟩
abbrev S8x1024x4096 : Shape := ⟨3, ![8, 1024, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x8192, .f32⟩
  | .hbm, ⟨5, _⟩ => ⟨S8x1024x4096, .f32⟩
  | .hbm, ⟨6, _⟩ => ⟨S8x1024x4096, .f32⟩
  | .hbm, ⟨7, _⟩ => ⟨S8x1024x4096, .f32⟩
  | .hbm, ⟨8, _⟩ => ⟨S8x1024x4096, .f32⟩
  | .hbm, ⟨9, _⟩ => ⟨S_, .f32⟩
  | .hbm, ⟨10, _⟩ => ⟨S8x1024x4096, .f32⟩
  | .hbm, ⟨11, _⟩ => ⟨S8x1024x4096, .f32⟩
  | .hbm, ⟨12, _⟩ => ⟨S_, .f32⟩
  | .hbm, ⟨13, _⟩ => ⟨S8x1024x4096, .f32⟩
  | .hbm, ⟨14, _⟩ => ⟨S8x1024x4096, .f32⟩
  | .hbm, ⟨15, _⟩ => ⟨S8x1024x4096, .f32⟩
  | .hbm, ⟨16, _⟩ => ⟨S8x1024x4096, .f32⟩
  | .hbm, ⟨17, _⟩ => ⟨S8x1024x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S8192x2048_S8x1024x2048 : S8192x2048.ShapeCasts S8x1024x2048
  slices_S8x1024x8192_S8x1024x4096_0_0_0 : S8x1024x8192.Slices ![0, 0, 0] S8x1024x4096
  slices_S8x1024x8192_S8x1024x4096_0_0_4096 : S8x1024x8192.Slices ![0, 0, 4096] S8x1024x4096
  bcast_S_S8x1024x4096 : S_.BroadcastsInDim S8x1024x4096 (![] : Fin 0 → Fin S8x1024x4096.rank)
  shapeCasts_S8x1024x2048_S8192x2048 : S8x1024x2048.ShapeCasts S8192x2048
  dot_S8x1024x2048_S8x2048x8192_S8x1024x8192_2_1_1_2_0_0_wf : DotDims.WF S8x1024x2048 S8x2048x8192 S8x1024x8192 [2] [1] [1] [2] [0] [0]
  dot_S8x1024x4096_S8x4096x2048_S8x1024x2048_2_1_1_2_0_0_wf : DotDims.WF S8x1024x4096 S8x4096x2048 S8x1024x2048 [2] [1] [1] [2] [0] [0]

variable [Facts₀]

def dot_S8x1024x2048_S8x2048x8192_S8x1024x8192_2_1_1_2_0_0 : DotDims S8x1024x2048 S8x2048x8192 S8x1024x8192 where
  lhsContracting := [2]
  rhsContracting := [1]
  lhsNonContracting := [1]
  rhsNonContracting := [2]
  lhsBatch := [0]
  rhsBatch := [0]
  wf := dot_S8x1024x2048_S8x2048x8192_S8x1024x8192_2_1_1_2_0_0_wf
def dot_S8x1024x4096_S8x4096x2048_S8x1024x2048_2_1_1_2_0_0 : DotDims S8x1024x4096 S8x4096x2048 S8x1024x2048 where
  lhsContracting := [2]
  rhsContracting := [1]
  lhsNonContracting := [1]
  rhsNonContracting := [2]
  lhsBatch := [0]
  rhsBatch := [0]
  wf := dot_S8x1024x4096_S8x4096x2048_S8x1024x2048_2_1_1_2_0_0_wf

class Facts : Prop extends Facts₀ where

variable [Facts]
-- ==== Proof.LibSharedTail.lean ====
import Idealize.ShloMosaic.Lib.Pipeline.FrameSuffix

noncomputable section

/-! # The frame run of a one-region pipeline whose windows may share an array, continued by host lines

A kernel handed one array through several input windows holds that array once; the windows on it hold it at shares
that compose to the whole. When @main goes on after the region with lines of host operations, those lines run within
every unscoped buffer of the core, the arrays included: at the region's exit the windows' shares are joined back into
the distinct buffers behind the arrays (hexit), the lines run, and the buffers are dealt to the windows again
(hback), so that the arrays can be read at the end. The lines write no array. -/

namespace Idealize.ShloMosaic.Pipeline

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

set_option backward.isDefEq.respectTransparency.types false in
/-- THE LINES AFTER THE REGION when windows may share an array. From the region's exit (the boundary, the windows'
    arrays at their final contents, each window at its share, and the bypassing buffers at the entry contents V₀)
    the lines opss run within the core's unscoped buffers held at the exit valuation Wx: the arrays' buffers at what
    the shares join to (hexit), the bypassing buffers as at entry (hWx). They write no array (hkeep), so the
    buffers behind the arrays are dealt back to the windows afterwards (hback), and the bypassing buffers end at the
    lines' StableHlo.after from Wx. -/
theorem shared_tail_seqs (cfgs : P → Cfg sig Λ₀)
    (dats : (p : P) → (c : Dev nD) → Dat τ Val Unit ℕ (UR sig nD τ) ℕ (cfgs p) c) (p : P)
    (hw : WinFacts₀ (cfgs p).spec) (defs₀ : Defs nD τ sig Val Λ₀) (𝒱₀ : Variants) (c : Dev nD)
    (V₀ Wx : Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfgs p).spec w) ∉ op.writes)
    (hexit : (dats p c).arrays ((dats p c).arrAt · (cfgs p).N)
      ⊢ (arrBufs (cfgs p).spec c (fun b => Wx (Proc.devRef .tc b)) : sProp 𝕄))
    (hback : (arrBufs (cfgs p).spec c (fun b => Wx (Proc.devRef .tc b)) : sProp 𝕄)
      ⊢ (dats p c).arrays ((dats p c).arrAt · (cfgs p).N))
    (hWx : ∀ b ∈ restRefs sig (cfgs p).spec, Wx (Proc.devRef .tc b) = V₀ (Proc.devRef .tc b))
    (Q' : PUnit → sProp 𝕄) :
    iprop((iprop((dats p c).arrays ((dats p c).arrAt · (cfgs p).N)
              ∗ unscopedRest (cfgs p).spec c (fun b => StableHlo.after opss.flatten Wx (Proc.devRef .tc b))) -∗ Q' ⟨⟩)
        ∗ boundary (c.tc : Thread nD τ) ∗ (dats p c).arrays ((dats p c).arrAt · (cfgs p).N)
        ∗ unscopedRest (cfgs p).spec c (fun b => V₀ (Proc.devRef .tc b)))
      ⊢ wp frame (wpE (Pipeline.defs (fun q => Cfg.toPCfg (Val := Val) (cfgs q)) defs₀) (Variants.lift 𝒱₀) (c.tc : Thread nD τ) none)
          Set.univ (chain (opss.map StableHlo.seq)) Q' := by
  classical
  have hR : (unscopedRest (cfgs p).spec c (fun b => V₀ (Proc.devRef .tc b)) : sProp 𝕄)
      = unscopedRest (cfgs p).spec c (fun b => Wx (Proc.devRef .tc b)) := by
    unfold unscopedRest
    exact bigSep_congr fun b hb => by dsimp only; rw [hWx b hb]
  have hA' : (arrBufs (cfgs p).spec c (fun b => StableHlo.after opss.flatten Wx (Proc.devRef .tc b)) : sProp 𝕄)
      = arrBufs (cfgs p).spec c (fun b => Wx (Proc.devRef .tc b)) := by
    unfold arrBufs
    refine bigSep_congr fun b hb => ?_
    obtain ⟨w, -, rfl⟩ := Finset.mem_image.mp hb
    dsimp only
    rw [StableHlo.after_of_forall_not_mem _ _ fun op hop => ?_]
    obtain ⟨ops, hops, hop⟩ := List.mem_flatten.mp hop
    exact hkeep ops hops op hop w
  have hH : ∀ W : Valuation τ sig Val, (StableHlo.held (c.tc : Thread nD τ) (ucRefs τ sig) W : sProp 𝕄)
      = iprop((arrBufs (cfgs p).spec c (fun b => W (Proc.devRef .tc b)) : sProp 𝕄) ∗ unscopedRest (cfgs p).spec c (fun b => W (Proc.devRef .tc b))) := fun W => by
    rw [← unscopedBufs_held (Ix := Unit) (Name := ℕ) (U := UR sig nD τ) (Lvl := ℕ) c W]
    exact unscopedBufs_split₀ cfgs p hw.arr_unscoped c (fun b => W (Proc.devRef .tc b))
  rw [← List.append_nil (opss.map StableHlo.seq), hR]
  iintro ⟨Hk, Hb, HA, HR⟩
  iapply (wp_seqs_then (fun q => Cfg.toPCfg (Val := Val) (cfgs q)) defs₀ 𝒱₀ c (ucRefs τ sig) [] opss
    (fun ops hops op hop => sub_ucRefs op (hsub ops hops op hop)) hfresh Wx) $$ [Hb HA HR]
  · isplitl [Hb]; · iexact Hb
    rw [hH Wx]
    isplitl [HA]
    · iapply hexit; iexact HA
    · iexact HR
  iintro Hb
  rw [chain_nil, wp_pure, hH (StableHlo.after opss.flatten Wx), hA']
  imodintro
  iapply Hk
  icases Hb with ⟨-, HA, HR⟩
  isplitl [HA]
  · iapply hback; iexact HA
  · iexact HR

/-- THE FRAME RUN of a one-region pipeline whose windows may share an array, for an @main that goes on after the
    region with the host lines opss (hmain). The layout facts are taken by name, the arrays not required
    distinct (hw). hsplit deals the distinct buffers behind the arrays, whole at the entry contents V₀, to the
    windows at the first point; hexit joins the windows' shares back at the last, into the buffers at the exit
    valuation Wx (which agrees with V₀ off the arrays, hWx), and hback deals them again once the lines, which
    write no array (hkeep), have run. The data's invariant is entered from and returned to the core's scoped buffers
    that are no staging buffer. Conclusion: every window's array ends at arrAt w N, every other unscoped buffer at
    the lines' StableHlo.after from Wx. -/
theorem θ_run_frame_shared_around (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Wx : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfgs p).spec c (fun b => V₀ c (Proc.devRef .tc b)) : sProp 𝕄)
      ⊢ (dats p c).arrays ((dats p c).arrAt · 0))
    (hexit : ∀ c, (dats p c).arrays ((dats p c).arrAt · (cfgs p).N)
      ⊢ (arrBufs (cfgs p).spec c (fun b => Wx c (Proc.devRef .tc b)) : sProp 𝕄))
    (hback : ∀ c, (arrBufs (cfgs p).spec c (fun b => Wx c (Proc.devRef .tc b)) : sProp 𝕄)
      ⊢ (dats p c).arrays ((dats p c).arrAt · (cfgs p).N))
    (hWx : ∀ c, ∀ b ∈ restRefs sig (cfgs p).spec, Wx c (Proc.devRef .tc b) = V₀ c (Proc.devRef .tc b))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g)
      (FramePost cfgs dats p (fun c b => StableHlo.after opss.flatten (Wx c) (Proc.devRef .tc b))) := by
  classical
  exact θ_run_region_noSem_pf_tail (Ix := Unit) (Name := ℕ) (U := UR sig nD τ) (Lvl := ℕ)
    (fun q => (cfgs q).toPCfg (Val := Val)) (fun q => (cfgs q).toPCfg_adm) dats () hinj p hw (PreFacts.none _) emb₁ defs₀ 𝒱₀ m g main
    (fun _ => chain (opss.map StableHlo.seq)) hbody hne harr hstage howed
    (Rounds.initOf (cells cfgs hinj) (launchToks cfgs hinj)) .rfl (fun c b => V₀ c (Proc.devRef .tc b)) hmain hsplit
    (fun _ k => k.elim0)
    (fun _ => iprop(emp)) (fun _ => iprop(emp))
    (fun c => unscopedRest (Ix := Unit) (Name := ℕ) (U := UR sig nD τ) (Lvl := ℕ) (cfgs p).spec c (fun b => V₀ c (Proc.devRef .tc b)))
    (fun c => unscopedRest (Ix := Unit) (Name := ℕ) (U := UR sig nD τ) (Lvl := ℕ) (cfgs p).spec c
      (fun b => StableHlo.after opss.flatten (Wx c) (Proc.devRef .tc b)))
    (fun c => by
      rw [unscopedRestP_none]
      iintro HU
      isplitr
      · iempintro
      · iexact HU)
    (fun c => (show _ ⊢ (scopedRest (cfgs p).spec c : sProp 𝕄) from by
      iintro ⟨-, -, HR⟩; iexact HR).trans (hin c))
    (fun c => (hout c).trans (by
      iintro HR
      isplitr
      · iempintro
      · iexact HR))
    (fun c Q' => shared_tail_seqs cfgs dats p hw defs₀ 𝒱₀ c (V₀ c) (Wx c) opss hsub hfresh hkeep (hexit c) (hback c) (hWx c) Q')
    (fun c s => ∀ b ∈ restRefs sig (cfgs p).spec, s.mem ((c.tc : Thread nD τ).loc b) = StableHlo.after opss.flatten (Wx c) (Proc.devRef .tc b))
    (fun c s' => by
      iintro ⟨-, HU, HSI⟩
      unfold unscopedRest
      imodintro
      iapply (pointsTo_read_all (restRefs sig (cfgs p).spec) (fun b => (c.tc : Thread nD τ).loc b)
        (fun b => StableHlo.after opss.flatten (Wx c) (Proc.devRef .tc b)) s')
      isplitl [HU] <;> iassumption)
    (fun s h c => ⟨(h c).1, (h c).2.2⟩)

end Idealize.ShloMosaic.Pipeline

end
-- ==== Proof.K.Setup.lean ====
/-
  What the frame of the expert feed-forward kernel is stated over: the contents of the core's buffers when the region is
  entered (the token matrix reshaped to [8, 1024, 2048] by the one host line before the region), @main as that line, the
  region, and the one reshape after it; each input window's block at a grid point, which its staging buffer holds at
  every point whether or not the pipeline fetched there; and the one condition of the body: the point opens a run of
  sixteen points along the intermediate axis (its coordinate there is zero), where the output block is first zeroed.
-/
import proofs.«148154_j45251775431031_1_alg».proof.Proof.Gen.Kernel.Launch
import proofs.«148154_j45251775431031_1_alg».proof.Proof.Gen.Kernel.Skeleton
import proofs.«148154_j45251775431031_1_alg».proof.Proof.Gen.Kernel.Points
import proofs.«148154_j45251775431031_1_alg».proof.Proof.LibSharedTail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.FrameProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: the launch memory after the one reshape before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshape, the region, the reshape: it reduces to the region continued by the later line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches TensorCore buffers only, -/
theorem sfx_sub : ∀ ops ∈ ([hostOps1] : List (List (HloOp τ sig (Elt F)))), ∀ op ∈ ops,
    op.bufs ⊆ StableHlo.tcRefs τ sig := by
  intro ops hops op hop
  simp only [List.mem_cons, List.mem_nil_iff, or_false] at hops
  rcases hops with rfl
  exact (List.forall_iff_forall_mem.mp hostOps1_sub) op hop
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes no array of the pipeline (its result is the flat [8192, 2048] buffer, which no window stages). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- The argument arrays are untouched by the reshape before the region. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results
theorem V_main_arg2 (c : Dev nD) : V m c main_arg2 = m ((c : Thread nD τ).loc main_arg2) := by
  dsimp only [V, V0]; simp only [hostOps0, List.flatten_cons, List.flatten_nil, List.append_nil]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where the pipeline
    does not fetch, the block index has not moved and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's one condition -/

/-- The body zeroes its output block first: the point's coordinate along the intermediate axis is zero. -/
abbrev cond0_0 (i : grid0.Coords) : Prop := (Scalar.cmpi .ne (Scalar.extui (Scalar.cmpi .eq (BitVec.ofNat 32 (i 2).val) 0#32)) 0#32) = 1#1
/-- That axis is the innermost of the grid, sixteen long: the condition holds at the points divisible by sixteen. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs at a point -/

/-- One staging buffer of the output window, through which its contents are stated. -/
abbrev VO0_4 : View sig .tc .vmem S1x512x2048 .f32 := (Memref.whole cc0_stg4_0 : Memref sig .tc .vmem S1x512x2048 .f32).view
/-- Each window's current staging memref at point `t`, as the pipeline passes it, and its wholeness. -/
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2048 .f32 := win0_4.stage (cfg0.slots t 4)
abbrev hs0_4 (t : Fin cfg0.N) : (ms0_4 t).IsWhole := hstage0_4 ((cfg0.slots t 4).cast nbuf0_4)

end Cert.Kernel.FrameProof

end
-- ==== Proof.K.RunA.lean ====
/-
  The body at a point that opens a run along the intermediate axis: on whole staging memrefs, the four inputs at their
  contents and the output's at anything, it runs to the end leaving the inputs as they were and the output's buffer
  written by two stores, the zero block and then the block's first partial product added to what was just stored.
-/
import proofs.«148154_j45251775431031_1_alg».proof.Proof.K.Setup

set_option maxRecDepth 16384

noncomputable section

namespace Cert.Kernel.FrameProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the output's staging memref at such a point (last first), with the proof that it runs. -/
noncomputable def kernelRun0_A (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : cond0_0 i)
    (x0 : Vec F S1x512x2048 .f32) (x1 : Vec F S1x2048x256 .f32) (x2 : Vec F S1x2048x256 .f32) (x3 : Vec F S1x256x2048 .f32) :
    { L4 : List (View.Piece (Elt F) S1x512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc0__expert_ffn_kernel i arg3 harg3 arg4 harg4 arg5 harg5 arg6 harg6 arg7 harg7) K } := by
  refine ⟨?_, fun E K => ?run⟩
  case run =>
    simp only [cc0__expert_ffn_kernel_eq_skeleton]; unfold cc0__expert_ffn_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.FrameProof

end
-- ==== Proof.K.RunB.lean ====
/-
  The body at a point inside a run along the intermediate axis: on whole staging memrefs, the four inputs at their
  contents and the output's at the running sum the point before left, it runs to the end leaving the inputs as they
  were and the output's buffer written by one store, the running sum plus this point's partial product.
-/
import proofs.«148154_j45251775431031_1_alg».proof.Proof.K.RunA

set_option maxRecDepth 16384

noncomputable section

namespace Cert.Kernel.FrameProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The store the body leaves in the output's staging memref at such a point, with the proof that it runs. -/
noncomputable def kernelRun0_B (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : ¬cond0_0 i)
    (x0 : Vec F S1x512x2048 .f32) (x1 : Vec F S1x2048x256 .f32) (x2 : Vec F S1x2048x256 .f32) (x3 : Vec F S1x256x2048 .f32) (xo4 : Vec F S1x512x2048 .f32) :
    { L4 : List (View.Piece (Elt F) S1x512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc0__expert_ffn_kernel i arg3 harg3 arg4 harg4 arg5 harg5 arg6 harg6 arg7 harg7) K } := by
  refine ⟨?_, fun E K => ?run⟩
  case run =>
    simp only [cc0__expert_ffn_kernel_eq_skeleton]; unfold cc0__expert_ffn_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.FrameProof

end
-- ==== Proof.K.Frame.lean ====
/-
  The proof data of the expert feed-forward kernel's one pipeline and its body obligation. The output block of a
  (expert, token tile) pair is revisited along the sixteen points of the intermediate axis: the first zeroes it and
  adds its partial product, the others add theirs to what the point before left; the pipeline writes the block back
  after the sixteenth. So what the output's staging buffer holds after a point is defined by recursion on the point.
-/
import proofs.«148154_j45251775431031_1_alg».proof.Proof.K.RunB

set_option maxRecDepth 16384

noncomputable section

namespace Cert.Kernel.FrameProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two stores of a run's first point tile the output block, so they cover it. -/
theorem cover0_A_4 (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : cond0_0 i)
    (x0 : Vec F S1x512x2048 .f32) (x1 : Vec F S1x2048x256 .f32) (x2 : Vec F S1x2048x256 .f32) (x3 : Vec F S1x256x2048 .f32) (y : S1x512x2048.Idx) :
    ∃ pc ∈ (kernelRun0_A c i arg3 harg3 arg4 harg4 arg5 harg5 arg6 harg6 arg7 harg7 hc0 x0 x1 x2 x3).1, y ∈ pc.1.set :=
  View.cover_of_tiledL (kernelRun0_A c i arg3 harg3 arg4 harg4 arg5 harg5 arg6 harg6 arg7 harg7 hc0 x0 x1 x2 x3).1 S1x512x2048.size (by sl_kernel_rfl) y

/-- What a run's first point leaves in the output's staging buffer: its stores read back. -/
def out0_A_4 (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : cond0_0 i)
    (x0 : Vec F S1x512x2048 .f32) (x1 : Vec F S1x2048x256 .f32) (x2 : Vec F S1x2048x256 .f32) (x3 : Vec F S1x256x2048 .f32) : Vec F S1x512x2048 .f32 :=
  VO0_4.read (Elt F) (VO0_4.writes (Elt F) VO0_4.junk (kernelRun0_A c i arg3 harg3 arg4 harg4 arg5 harg5 arg6 harg6 arg7 harg7 hc0 x0 x1 x2 x3).1)

/-- The one store of a later point covers the output block. -/
theorem cover0_B_4 (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : ¬cond0_0 i)
    (x0 : Vec F S1x512x2048 .f32) (x1 : Vec F S1x2048x256 .f32) (x2 : Vec F S1x2048x256 .f32) (x3 : Vec F S1x256x2048 .f32) (xo4 : Vec F S1x512x2048 .f32) (y : S1x512x2048.Idx) :
    ∃ pc ∈ (kernelRun0_B c i arg3 harg3 arg4 harg4 arg5 harg5 arg6 harg6 arg7 harg7 hc0 x0 x1 x2 x3 xo4).1, y ∈ pc.1.set :=
  View.cover_of_tiledL (kernelRun0_B c i arg3 harg3 arg4 harg4 arg5 harg5 arg6 harg6 arg7 harg7 hc0 x0 x1 x2 x3 xo4).1 S1x512x2048.size (by sl_kernel_rfl) y

/-- What a later point leaves in the output's staging buffer, over what the point before left. -/
def out0_B_4 (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : ¬cond0_0 i)
    (x0 : Vec F S1x512x2048 .f32) (x1 : Vec F S1x2048x256 .f32) (x2 : Vec F S1x2048x256 .f32) (x3 : Vec F S1x256x2048 .f32) (xo4 : Vec F S1x512x2048 .f32) : Vec F S1x512x2048 .f32 :=
  VO0_4.read (Elt F) (VO0_4.writes (Elt F) VO0_4.junk (kernelRun0_B c i arg3 harg3 arg4 harg4 arg5 harg5 arg6 harg6 arg7 harg7 hc0 x0 x1 x2 x3 xo4).1)

/-! ## What the output's staging buffer holds after each point -/

/-- The accumulation: at a point that opens a run, what the first case leaves; at any other, what the second case
    leaves over the contents after the point before. -/
def outsAt0 (c : Dev nD) : (n : ℕ) → n < cfg0.N → Vec F S1x512x2048 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 16 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

theorem outsAt0_A (c : Dev nD) (t : Fin cfg0.N) (h0 : t.val % 16 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at a point each input's buffer at its block and the output's
    at the accumulation; between points the core's scoped buffers that are no staging buffer (it has none); nothing owed. The weight array is read through two windows, the gate columns and the up
    columns: each holds it at one half of the whole, the other inputs hold theirs whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.scopedRest (Ix := Unit) (Name := ℕ) (U := UR sig nD τ) (Lvl := ℕ) (Val := Elt F) spec0 c
  q w := match w with
    | ⟨0, _⟩ => fullShare
    | ⟨1, _⟩ => (fullShare : PosShare TreeShare).left
    | ⟨2, _⟩ => (fullShare : PosShare TreeShare).right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- Inside a run the output's staging buffer holds what the body left at the point before: the block is written back
    only after a run's last point, and the window is never idle. -/
theorem before0_4_B (c : Dev nD) (t : Fin cfg0.N) (h0 : ¬t.val % 16 = 0) (d) :
    (dats m 0 c).before 4 t d = (outsAt0 m c (t.val - 1) (Nat.lt_of_le_of_lt (Nat.sub_le _ _) t.isLt)) := by
  have hN : t.val < 256 := lt_of_lt_of_eq t.isLt (show cfg0.N = 256 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their blocks; the point either opens a run or continues one, and
    in the second case the output's memref holds what the point before left; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 256 := lt_of_lt_of_eq t.isLt (show cfg0.N = 256 from N_0)
  by_cases h0 : t.val % 16 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.FrameProof

end
-- ==== Proof.K.Launch.lean ====
/-
  The launch of the expert feed-forward kernel and its frame. The weight array holding gate and up columns side by side
  is read through two windows; the core holds that array once, so at the region's entry its one buffer is dealt to the
  two windows half and half, and at the exit the halves are joined again for the reshape that follows the region to run.
  An input array is never written, so at the exit both windows still hold the weights as the region found them.
-/
import proofs.«148154_j45251775431031_1_alg».proof.Proof.K.Frame

set_option maxRecDepth 16384

noncomputable section

namespace Cert.Kernel.FrameProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffer contents at the region's exit: each window's array at what the write-backs left, every other
    buffer as the region found it. -/
abbrev Wx (c : Dev nD) : Valuation τ sig (Elt F) :=
  Pipeline.withArrays spec0 c (V0 m c) (fun w => (dats m 0 c).arrAt w cfg0.N)

/-- An input's array is never written. -/
theorem arrAt_in0 (c : Dev nD) (n : ℕ) : (dats m 0 c).arrAt 0 n = V m c (Pipeline.arrRef spec0 0) := ((dats m 0 c).arrAt_in 0 rfl n).trans (A_eq m c 0)
theorem arrAt_in1 (c : Dev nD) (n : ℕ) : (dats m 0 c).arrAt 1 n = V m c (Pipeline.arrRef spec0 1) := ((dats m 0 c).arrAt_in 1 rfl n).trans (A_eq m c 1)
theorem arrAt_in2 (c : Dev nD) (n : ℕ) : (dats m 0 c).arrAt 2 n = V m c (Pipeline.arrRef spec0 2) := ((dats m 0 c).arrAt_in 2 rfl n).trans (A_eq m c 2)
theorem arrAt_in3 (c : Dev nD) (n : ℕ) : (dats m 0 c).arrAt 3 n = V m c (Pipeline.arrRef spec0 3) := ((dats m 0 c).arrAt_in 3 rfl n).trans (A_eq m c 3)

/-- Two windows stage one array only if they are one window, or the gate window and the up window. -/
theorem arr_eq_cases : ∀ w' w : Fin 5, Pipeline.arrRef spec0 w' = Pipeline.arrRef spec0 w → w' = w ∨ (w' = 1 ∧ w = 2) ∨ (w' = 2 ∧ w = 1) := by
  decide

/-- The exit contents read at a window's array: the two windows on the weight array agree there. -/
theorem Wx_arr (c : Dev nD) (w : Fin 5) :
    Wx m c (Proc.devRef .tc (Pipeline.arrRef spec0 w)) = (dats m 0 c).arrAt w cfg0.N := by
  unfold Wx Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 5) (e : Proc.devRef .tc (Pipeline.arrRef spec0 w') = Proc.devRef (τ := τ) .tc (Pipeline.arrRef spec0 w)),
      cast (congrArg (fun b' : DevRef τ sig => b'.ty.Contents (Elt F)) e) ((dats m 0 c).arrAt w' cfg0.N) = (dats m 0 c).arrAt w cfg0.N from this _ h.choose_spec
  intro w' e
  have e' : Pipeline.arrRef spec0 w' = Pipeline.arrRef spec0 w := Proc.devRef_injective _ e
  rcases arr_eq_cases w' w e' with rfl | ⟨rfl, rfl⟩ | ⟨rfl, rfl⟩
  · rfl
  · exact (cast_eq _ _).trans ((arrAt_in1 m c _).trans (arrAt_in2 m c _).symm)
  · exact (cast_eq _ _).trans ((arrAt_in2 m c _).trans (arrAt_in1 m c _).symm)

/-- Off the arrays the exit contents are the entry contents. -/
theorem hWx (c : Dev nD) : ∀ b ∈ Pipeline.restRefs sig spec0, Wx m c (Proc.devRef .tc b) = V0 m c (Proc.devRef .tc b) := fun b hb =>
  Pipeline.withArrays_of_ne spec0 c (V0 m c) _ b fun w e =>
    (Finset.mem_sdiff.mp hb).2 (Finset.mem_image.mpr ⟨w, Finset.mem_univ _, e⟩)

/-- The distinct buffers behind the windows' arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg1) ↦{fullShare} W main_arg1)
          ∗ (((c : Thread nD τ).loc main_arg2) ↦{fullShare} W main_arg2) ∗ (((c : Thread nD τ).loc main_v1) ↦{fullShare} W main_v1)) := by
  unfold Pipeline.arrBufs
  exact bigSep_eq_bigSepL_of_eq [main_v0, main_arg1, main_arg2, main_v1] (by decide) (by decide) _

/-- The pipeline's arrays, window by window: the two windows on the weight array at its two halves. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_v0) ↦{fullShare} G 0) ∗ (((c : Thread nD τ).loc main_arg1) ↦{(fullShare : PosShare TreeShare).left} G 1)
          ∗ (((c : Thread nD τ).loc main_arg1) ↦{(fullShare : PosShare TreeShare).right} G 2)
          ∗ (((c : Thread nD τ).loc main_arg2) ↦{fullShare} G 3) ∗ (((c : Thread nD τ).loc main_v1) ↦{fullShare} G 4)) := by
  unfold Dat.arrays
  rw [bigSep_W0, (arr_whole0 0).set_eq_univ, (arr_whole0 1).set_eq_univ, (arr_whole0 3).set_eq_univ, (arr_whole0 4).set_eq_univ]
  rfl

/-- Dealing the buffers to the windows: the weight array's buffer is halved. -/
theorem deal (c : Dev nD) (W : (b : Ref sig .tc) → Buf (Elt F) ((c : Thread nD τ).loc b))
    (G : (w : Fin cfg0.W) → Buf (Elt F) ((cfg0.win w).arr.view.loc (c : Thread nD τ)))
    (h0 : G 0 = W main_v0) (h1 : G 1 = W main_arg1) (h2 : G 2 = W main_arg1) (h3 : G 3 = W main_arg2) (h4 : G 4 = W main_v1) :
    (Pipeline.arrBufs (Ix := Unit) (Name := ℕ) (U := UR sig nD τ) (Lvl := ℕ) spec0 c W : sProp 𝕄) ⊢ (dats m 0 c).arrays G := by
  rw [arrBufs_eq, arrays_eq, h0, h1, h2, h3, h4]
  iintro ⟨H0, H1, H2, H3⟩
  ihave H1 := (pointsTo_share (PosShare.mem_left_op_right fullShare)).1 $$ H1
  icases H1 with ⟨H1a, H1b⟩
  isplitl [H0]; · iexact H0
  isplitl [H1a]; · iexact H1a
  isplitl [H1b]; · iexact H1b
  isplitl [H2]; · iexact H2
  iexact H3

/-- Joining the windows' shares back into the buffers. -/
theorem join (c : Dev nD) (W : (b : Ref sig .tc) → Buf (Elt F) ((c : Thread nD τ).loc b))
    (G : (w : Fin cfg0.W) → Buf (Elt F) ((cfg0.win w).arr.view.loc (c : Thread nD τ)))
    (h0 : G 0 = W main_v0) (h1 : G 1 = W main_arg1) (h2 : G 2 = W main_arg1) (h3 : G 3 = W main_arg2) (h4 : G 4 = W main_v1) :
    ((dats m 0 c).arrays G : sProp 𝕄) ⊢ Pipeline.arrBufs (Ix := Unit) (Name := ℕ) (U := UR sig nD τ) (Lvl := ℕ) spec0 c W := by
  rw [arrBufs_eq, arrays_eq, h0, h1, h2, h3, h4]
  iintro ⟨H0, H1a, H1b, H2, H3⟩
  isplitl [H0]; · iexact H0
  isplitl [H1a H1b]
  · iapply (pointsTo_share (PosShare.mem_left_op_right fullShare)).2
    isplitl [H1a]; · iexact H1a
    iexact H1b
  isplitl [H2]; · iexact H2
  iexact H3

theorem hsplit (c : Dev nD) : (Pipeline.arrBufs (Ix := Unit) (Name := ℕ) (U := UR sig nD τ) (Lvl := ℕ) spec0 c (V m c) : sProp 𝕄)
    ⊢ (dats m 0 c).arrays ((dats m 0 c).arrAt · 0) :=
  deal m c (V m c) _ (A_eq m c 0) (A_eq m c 1) (A_eq m c 2) (A_eq m c 3) (A_eq m c 4)

theorem hexit (c : Dev nD) : ((dats m 0 c).arrays ((dats m 0 c).arrAt · cfg0.N) : sProp 𝕄)
    ⊢ Pipeline.arrBufs (Ix := Unit) (Name := ℕ) (U := UR sig nD τ) (Lvl := ℕ) spec0 c (fun b => Wx m c (Proc.devRef .tc b)) :=
  join m c (fun b => Wx m c (Proc.devRef .tc b)) _ (Wx_arr m c 0).symm (Wx_arr m c 1).symm (Wx_arr m c 2).symm (Wx_arr m c 3).symm (Wx_arr m c 4).symm

theorem hback (c : Dev nD) : (Pipeline.arrBufs (Ix := Unit) (Name := ℕ) (U := UR sig nD τ) (Lvl := ℕ) spec0 c (fun b => Wx m c (Proc.devRef .tc b)) : sProp 𝕄)
    ⊢ (dats m 0 c).arrays ((dats m 0 c).arrAt · cfg0.N) :=
  deal m c (fun b => Wx m c (Proc.devRef .tc b)) _ (Wx_arr m c 0).symm (Wx_arr m c 1).symm (Wx_arr m c 2).symm (Wx_arr m c 3).symm (Wx_arr m c 4).symm

/-! ## The run and the frame -/

set_option backward.isDefEq.respectTransparency.types false in
/-- Every weakly fair execution of @main terminates, each window's array ends at what the write-backs left and every
    other unscoped buffer at what the closing reshape makes of the exit contents. -/
theorem run_main : θ_run defs (onTc (τ := τ) (main (F := F))) (s₀ m ρ)
    (Pipeline.FramePost cfgs (dats m) 0 (fun c b => StableHlo.after (List.flatten [hostOps1]) (Wx m c) (Proc.devRef .tc b))) :=
  Pipeline.θ_run_frame_shared_around cfgs (dats m) (0 : Fin 1) cellOf_inj winFacts₀0 block_pos0 arr_whole0 stage_whole0 defs₀ Variants.none m ρ main
    (hbody := fun c => (body_obligation m c).loose) (howed := fun _ _ => rfl) (V₀ := V0 m) (Wx := Wx m) (opss := [hostOps1])
    (hsub := sfx_sub) (hfresh := sfx_fresh) (hkeep := sfx_keeps) (hmain := hmain m Variants.none)
    (hsplit := hsplit m) (hexit := hexit m) (hback := hback m) (hWx := hWx m) (hin := fun _ => .rfl) (hout := fun _ => .rfl)

/-- The frame: the run terminates and the three argument arrays end as they began. The two weight arrays are inputs
    of the pipeline, never written; the token matrix bypasses the region and the closing reshape does not write it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
    ((h c).2 main_arg0 (by decide)).trans (by
      show StableHlo.after (List.flatten [hostOps1]) (Wx m c) (Proc.devRef .tc main_arg0) = _
      simp only [hostOps1, List.flatten_cons, List.flatten_nil, List.append_nil]; after_results
      exact ((hWx m c) main_arg0 (by decide)).trans (V_main_arg0 m c)),
    ((h c).1 1).trans ((arrAt_in1 m c _).trans (V_main_arg1 m c)),
    ((h c).1 3).trans ((arrAt_in3 m c _).trans (V_main_arg2 m c))⟩) (run_main m ρ)

end Cert.Kernel.FrameProof

end
-- ==== Proof.KI.Setup.lean ====
/-
  What the frame of the expert feed-forward kernel is stated over: the contents of the core's buffers when the region is
  entered (the token matrix reshaped to [8, 1024, 2048] by the one host line before the region), @main as that line, the
  region, and the one reshape after it; each input window's block at a grid point, which its staging buffer holds at
  every point whether or not the pipeline fetched there; and the one condition of the body: the point opens a run of
  sixteen points along the intermediate axis (its coordinate there is zero), where the output block is first zeroed.
-/
import proofs.«148154_j45251775431031_1_alg».proof.Proof.Gen.KernelIdeal.Launch
import proofs.«148154_j45251775431031_1_alg».proof.Proof.Gen.KernelIdeal.Skeleton
import proofs.«148154_j45251775431031_1_alg».proof.Proof.Gen.KernelIdeal.Points
import proofs.«148154_j45251775431031_1_alg».proof.Proof.LibSharedTail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.FrameProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: the launch memory after the one reshape before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshape, the region, the reshape: it reduces to the region continued by the later line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches TensorCore buffers only, -/
theorem sfx_sub : ∀ ops ∈ ([hostOps1] : List (List (HloOp τ sig (Elt F)))), ∀ op ∈ ops,
    op.bufs ⊆ StableHlo.tcRefs τ sig := by
  intro ops hops op hop
  simp only [List.mem_cons, List.mem_nil_iff, or_false] at hops
  rcases hops with rfl
  exact (List.forall_iff_forall_mem.mp hostOps1_sub) op hop
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes no array of the pipeline (its result is the flat [8192, 2048] buffer, which no window stages). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- The argument arrays are untouched by the reshape before the region. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results
theorem V_main_arg2 (c : Dev nD) : V m c main_arg2 = m ((c : Thread nD τ).loc main_arg2) := by
  dsimp only [V, V0]; simp only [hostOps0, List.flatten_cons, List.flatten_nil, List.append_nil]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where the pipeline
    does not fetch, the block index has not moved and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's one condition -/

/-- The body zeroes its output block first: the point's coordinate along the intermediate axis is zero. -/
abbrev cond0_0 (i : grid0.Coords) : Prop := (Scalar.cmpi .ne (Scalar.extui (Scalar.cmpi .eq (BitVec.ofNat 32 (i 2).val) 0#32)) 0#32) = 1#1
/-- That axis is the innermost of the grid, sixteen long: the condition holds at the points divisible by sixteen. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs at a point -/

/-- One staging buffer of the output window, through which its contents are stated. -/
abbrev VO0_4 : View sig .tc .vmem S1x512x2048 .f32 := (Memref.whole cc0_stg4_0 : Memref sig .tc .vmem S1x512x2048 .f32).view
/-- Each window's current staging memref at point `t`, as the pipeline passes it, and its wholeness. -/
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2048 .f32 := win0_4.stage (cfg0.slots t 4)
abbrev hs0_4 (t : Fin cfg0.N) : (ms0_4 t).IsWhole := hstage0_4 ((cfg0.slots t 4).cast nbuf0_4)

end Cert.KernelIdeal.FrameProof

end
-- ==== Proof.KI.RunA.lean ====
/-
  The body at a point that opens a run along the intermediate axis: on whole staging memrefs, the four inputs at their
  contents and the output's at anything, it runs to the end leaving the inputs as they were and the output's buffer
  written by two stores, the zero block and then the block's first partial product added to what was just stored.
-/
import proofs.«148154_j45251775431031_1_alg».proof.Proof.KI.Setup

set_option maxRecDepth 16384

noncomputable section

namespace Cert.KernelIdeal.FrameProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the output's staging memref at such a point (last first), with the proof that it runs. -/
noncomputable def kernelRun0_A (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : cond0_0 i)
    (x0 : Vec F S1x512x2048 .f32) (x1 : Vec F S1x2048x256 .f32) (x2 : Vec F S1x2048x256 .f32) (x3 : Vec F S1x256x2048 .f32) :
    { L4 : List (View.Piece (Elt F) S1x512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc0__expert_ffn_kernel i arg3 harg3 arg4 harg4 arg5 harg5 arg6 harg6 arg7 harg7) K } := by
  refine ⟨?_, fun E K => ?run⟩
  case run =>
    simp only [cc0__expert_ffn_kernel_eq_skeleton]; unfold cc0__expert_ffn_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.FrameProof

end
-- ==== Proof.KI.RunB.lean ====
/-
  The body at a point inside a run along the intermediate axis: on whole staging memrefs, the four inputs at their
  contents and the output's at the running sum the point before left, it runs to the end leaving the inputs as they
  were and the output's buffer written by one store, the running sum plus this point's partial product.
-/
import proofs.«148154_j45251775431031_1_alg».proof.Proof.KI.RunA

set_option maxRecDepth 16384

noncomputable section

namespace Cert.KernelIdeal.FrameProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The store the body leaves in the output's staging memref at such a point, with the proof that it runs. -/
noncomputable def kernelRun0_B (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : ¬cond0_0 i)
    (x0 : Vec F S1x512x2048 .f32) (x1 : Vec F S1x2048x256 .f32) (x2 : Vec F S1x2048x256 .f32) (x3 : Vec F S1x256x2048 .f32) (xo4 : Vec F S1x512x2048 .f32) :
    { L4 : List (View.Piece (Elt F) S1x512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc0__expert_ffn_kernel i arg3 harg3 arg4 harg4 arg5 harg5 arg6 harg6 arg7 harg7) K } := by
  refine ⟨?_, fun E K => ?run⟩
  case run =>
    simp only [cc0__expert_ffn_kernel_eq_skeleton]; unfold cc0__expert_ffn_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.FrameProof

end
-- ==== Proof.KI.Frame.lean ====
/-
  The proof data of the expert feed-forward kernel's one pipeline and its body obligation. The output block of a
  (expert, token tile) pair is revisited along the sixteen points of the intermediate axis: the first zeroes it and
  adds its partial product, the others add theirs to what the point before left; the pipeline writes the block back
  after the sixteenth. So what the output's staging buffer holds after a point is defined by recursion on the point.
-/
import proofs.«148154_j45251775431031_1_alg».proof.Proof.KI.RunB

set_option maxRecDepth 16384

noncomputable section

namespace Cert.KernelIdeal.FrameProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two stores of a run's first point tile the output block, so they cover it. -/
theorem cover0_A_4 (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : cond0_0 i)
    (x0 : Vec F S1x512x2048 .f32) (x1 : Vec F S1x2048x256 .f32) (x2 : Vec F S1x2048x256 .f32) (x3 : Vec F S1x256x2048 .f32) (y : S1x512x2048.Idx) :
    ∃ pc ∈ (kernelRun0_A c i arg3 harg3 arg4 harg4 arg5 harg5 arg6 harg6 arg7 harg7 hc0 x0 x1 x2 x3).1, y ∈ pc.1.set :=
  View.cover_of_tiledL (kernelRun0_A c i arg3 harg3 arg4 harg4 arg5 harg5 arg6 harg6 arg7 harg7 hc0 x0 x1 x2 x3).1 S1x512x2048.size (by sl_kernel_rfl) y

/-- What a run's first point leaves in the output's staging buffer: its stores read back. -/
def out0_A_4 (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : cond0_0 i)
    (x0 : Vec F S1x512x2048 .f32) (x1 : Vec F S1x2048x256 .f32) (x2 : Vec F S1x2048x256 .f32) (x3 : Vec F S1x256x2048 .f32) : Vec F S1x512x2048 .f32 :=
  VO0_4.read (Elt F) (VO0_4.writes (Elt F) VO0_4.junk (kernelRun0_A c i arg3 harg3 arg4 harg4 arg5 harg5 arg6 harg6 arg7 harg7 hc0 x0 x1 x2 x3).1)

/-- The one store of a later point covers the output block. -/
theorem cover0_B_4 (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : ¬cond0_0 i)
    (x0 : Vec F S1x512x2048 .f32) (x1 : Vec F S1x2048x256 .f32) (x2 : Vec F S1x2048x256 .f32) (x3 : Vec F S1x256x2048 .f32) (xo4 : Vec F S1x512x2048 .f32) (y : S1x512x2048.Idx) :
    ∃ pc ∈ (kernelRun0_B c i arg3 harg3 arg4 harg4 arg5 harg5 arg6 harg6 arg7 harg7 hc0 x0 x1 x2 x3 xo4).1, y ∈ pc.1.set :=
  View.cover_of_tiledL (kernelRun0_B c i arg3 harg3 arg4 harg4 arg5 harg5 arg6 harg6 arg7 harg7 hc0 x0 x1 x2 x3 xo4).1 S1x512x2048.size (by sl_kernel_rfl) y

/-- What a later point leaves in the output's staging buffer, over what the point before left. -/
def out0_B_4 (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : ¬cond0_0 i)
    (x0 : Vec F S1x512x2048 .f32) (x1 : Vec F S1x2048x256 .f32) (x2 : Vec F S1x2048x256 .f32) (x3 : Vec F S1x256x2048 .f32) (xo4 : Vec F S1x512x2048 .f32) : Vec F S1x512x2048 .f32 :=
  VO0_4.read (Elt F) (VO0_4.writes (Elt F) VO0_4.junk (kernelRun0_B c i arg3 harg3 arg4 harg4 arg5 harg5 arg6 harg6 arg7 harg7 hc0 x0 x1 x2 x3 xo4).1)

/-! ## What the output's staging buffer holds after each point -/

/-- The accumulation: at a point that opens a run, what the first case leaves; at any other, what the second case
    leaves over the contents after the point before. -/
def outsAt0 (c : Dev nD) : (n : ℕ) → n < cfg0.N → Vec F S1x512x2048 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 16 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

theorem outsAt0_A (c : Dev nD) (t : Fin cfg0.N) (h0 : t.val % 16 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at a point each input's buffer at its block and the output's
    at the accumulation; between points the core's scoped buffers that are no staging buffer (it has none); nothing owed. The weight array is read through two windows, the gate columns and the up
    columns: each holds it at one half of the whole, the other inputs hold theirs whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.scopedRest (Ix := Unit) (Name := ℕ) (U := UR sig nD τ) (Lvl := ℕ) (Val := Elt F) spec0 c
  q w := match w with
    | ⟨0, _⟩ => fullShare
    | ⟨1, _⟩ => (fullShare : PosShare TreeShare).left
    | ⟨2, _⟩ => (fullShare : PosShare TreeShare).right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- Inside a run the output's staging buffer holds what the body left at the point before: the block is written back
    only after a run's last point, and the window is never idle. -/
theorem before0_4_B (c : Dev nD) (t : Fin cfg0.N) (h0 : ¬t.val % 16 = 0) (d) :
    (dats m 0 c).before 4 t d = (outsAt0 m c (t.val - 1) (Nat.lt_of_le_of_lt (Nat.sub_le _ _) t.isLt)) := by
  have hN : t.val < 256 := lt_of_lt_of_eq t.isLt (show cfg0.N = 256 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their blocks; the point either opens a run or continues one, and
    in the second case the output's memref holds what the point before left; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 256 := lt_of_lt_of_eq t.isLt (show cfg0.N = 256 from N_0)
  by_cases h0 : t.val % 16 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.FrameProof

end
-- ==== Proof.KI.Launch.lean ====
/-
  The launch of the expert feed-forward kernel and its frame. The weight array holding gate and up columns side by side
  is read through two windows; the core holds that array once, so at the region's entry its one buffer is dealt to the
  two windows half and half, and at the exit the halves are joined again for the reshape that follows the region to run.
  An input array is never written, so at the exit both windows still hold the weights as the region found them.
-/
import proofs.«148154_j45251775431031_1_alg».proof.Proof.KI.Frame

set_option maxRecDepth 16384

noncomputable section

namespace Cert.KernelIdeal.FrameProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffer contents at the region's exit: each window's array at what the write-backs left, every other
    buffer as the region found it. -/
abbrev Wx (c : Dev nD) : Valuation τ sig (Elt F) :=
  Pipeline.withArrays spec0 c (V0 m c) (fun w => (dats m 0 c).arrAt w cfg0.N)

/-- An input's array is never written. -/
theorem arrAt_in0 (c : Dev nD) (n : ℕ) : (dats m 0 c).arrAt 0 n = V m c (Pipeline.arrRef spec0 0) := ((dats m 0 c).arrAt_in 0 rfl n).trans (A_eq m c 0)
theorem arrAt_in1 (c : Dev nD) (n : ℕ) : (dats m 0 c).arrAt 1 n = V m c (Pipeline.arrRef spec0 1) := ((dats m 0 c).arrAt_in 1 rfl n).trans (A_eq m c 1)
theorem arrAt_in2 (c : Dev nD) (n : ℕ) : (dats m 0 c).arrAt 2 n = V m c (Pipeline.arrRef spec0 2) := ((dats m 0 c).arrAt_in 2 rfl n).trans (A_eq m c 2)
theorem arrAt_in3 (c : Dev nD) (n : ℕ) : (dats m 0 c).arrAt 3 n = V m c (Pipeline.arrRef spec0 3) := ((dats m 0 c).arrAt_in 3 rfl n).trans (A_eq m c 3)

/-- Two windows stage one array only if they are one window, or the gate window and the up window. -/
theorem arr_eq_cases : ∀ w' w : Fin 5, Pipeline.arrRef spec0 w' = Pipeline.arrRef spec0 w → w' = w ∨ (w' = 1 ∧ w = 2) ∨ (w' = 2 ∧ w = 1) := by
  decide

/-- The exit contents read at a window's array: the two windows on the weight array agree there. -/
theorem Wx_arr (c : Dev nD) (w : Fin 5) :
    Wx m c (Proc.devRef .tc (Pipeline.arrRef spec0 w)) = (dats m 0 c).arrAt w cfg0.N := by
  unfold Wx Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 5) (e : Proc.devRef .tc (Pipeline.arrRef spec0 w') = Proc.devRef (τ := τ) .tc (Pipeline.arrRef spec0 w)),
      cast (congrArg (fun b' : DevRef τ sig => b'.ty.Contents (Elt F)) e) ((dats m 0 c).arrAt w' cfg0.N) = (dats m 0 c).arrAt w cfg0.N from this _ h.choose_spec
  intro w' e
  have e' : Pipeline.arrRef spec0 w' = Pipeline.arrRef spec0 w := Proc.devRef_injective _ e
  rcases arr_eq_cases w' w e' with rfl | ⟨rfl, rfl⟩ | ⟨rfl, rfl⟩
  · rfl
  · exact (cast_eq _ _).trans ((arrAt_in1 m c _).trans (arrAt_in2 m c _).symm)
  · exact (cast_eq _ _).trans ((arrAt_in2 m c _).trans (arrAt_in1 m c _).symm)

/-- Off the arrays the exit contents are the entry contents. -/
theorem hWx (c : Dev nD) : ∀ b ∈ Pipeline.restRefs sig spec0, Wx m c (Proc.devRef .tc b) = V0 m c (Proc.devRef .tc b) := fun b hb =>
  Pipeline.withArrays_of_ne spec0 c (V0 m c) _ b fun w e =>
    (Finset.mem_sdiff.mp hb).2 (Finset.mem_image.mpr ⟨w, Finset.mem_univ _, e⟩)

/-- The distinct buffers behind the windows' arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg1) ↦{fullShare} W main_arg1)
          ∗ (((c : Thread nD τ).loc main_arg2) ↦{fullShare} W main_arg2) ∗ (((c : Thread nD τ).loc main_v1) ↦{fullShare} W main_v1)) := by
  unfold Pipeline.arrBufs
  exact bigSep_eq_bigSepL_of_eq [main_v0, main_arg1, main_arg2, main_v1] (by decide) (by decide) _

/-- The pipeline's arrays, window by window: the two windows on the weight array at its two halves. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_v0) ↦{fullShare} G 0) ∗ (((c : Thread nD τ).loc main_arg1) ↦{(fullShare : PosShare TreeShare).left} G 1)
          ∗ (((c : Thread nD τ).loc main_arg1) ↦{(fullShare : PosShare TreeShare).right} G 2)
          ∗ (((c : Thread nD τ).loc main_arg2) ↦{fullShare} G 3) ∗ (((c : Thread nD τ).loc main_v1) ↦{fullShare} G 4)) := by
  unfold Dat.arrays
  rw [bigSep_W0, (arr_whole0 0).set_eq_univ, (arr_whole0 1).set_eq_univ, (arr_whole0 3).set_eq_univ, (arr_whole0 4).set_eq_univ]
  rfl

/-- Dealing the buffers to the windows: the weight array's buffer is halved. -/
theorem deal (c : Dev nD) (W : (b : Ref sig .tc) → Buf (Elt F) ((c : Thread nD τ).loc b))
    (G : (w : Fin cfg0.W) → Buf (Elt F) ((cfg0.win w).arr.view.loc (c : Thread nD τ)))
    (h0 : G 0 = W main_v0) (h1 : G 1 = W main_arg1) (h2 : G 2 = W main_arg1) (h3 : G 3 = W main_arg2) (h4 : G 4 = W main_v1) :
    (Pipeline.arrBufs (Ix := Unit) (Name := ℕ) (U := UR sig nD τ) (Lvl := ℕ) spec0 c W : sProp 𝕄) ⊢ (dats m 0 c).arrays G := by
  rw [arrBufs_eq, arrays_eq, h0, h1, h2, h3, h4]
  iintro ⟨H0, H1, H2, H3⟩
  ihave H1 := (pointsTo_share (PosShare.mem_left_op_right fullShare)).1 $$ H1
  icases H1 with ⟨H1a, H1b⟩
  isplitl [H0]; · iexact H0
  isplitl [H1a]; · iexact H1a
  isplitl [H1b]; · iexact H1b
  isplitl [H2]; · iexact H2
  iexact H3

/-- Joining the windows' shares back into the buffers. -/
theorem join (c : Dev nD) (W : (b : Ref sig .tc) → Buf (Elt F) ((c : Thread nD τ).loc b))
    (G : (w : Fin cfg0.W) → Buf (Elt F) ((cfg0.win w).arr.view.loc (c : Thread nD τ)))
    (h0 : G 0 = W main_v0) (h1 : G 1 = W main_arg1) (h2 : G 2 = W main_arg1) (h3 : G 3 = W main_arg2) (h4 : G 4 = W main_v1) :
    ((dats m 0 c).arrays G : sProp 𝕄) ⊢ Pipeline.arrBufs (Ix := Unit) (Name := ℕ) (U := UR sig nD τ) (Lvl := ℕ) spec0 c W := by
  rw [arrBufs_eq, arrays_eq, h0, h1, h2, h3, h4]
  iintro ⟨H0, H1a, H1b, H2, H3⟩
  isplitl [H0]; · iexact H0
  isplitl [H1a H1b]
  · iapply (pointsTo_share (PosShare.mem_left_op_right fullShare)).2
    isplitl [H1a]; · iexact H1a
    iexact H1b
  isplitl [H2]; · iexact H2
  iexact H3

theorem hsplit (c : Dev nD) : (Pipeline.arrBufs (Ix := Unit) (Name := ℕ) (U := UR sig nD τ) (Lvl := ℕ) spec0 c (V m c) : sProp 𝕄)
    ⊢ (dats m 0 c).arrays ((dats m 0 c).arrAt · 0) :=
  deal m c (V m c) _ (A_eq m c 0) (A_eq m c 1) (A_eq m c 2) (A_eq m c 3) (A_eq m c 4)

theorem hexit (c : Dev nD) : ((dats m 0 c).arrays ((dats m 0 c).arrAt · cfg0.N) : sProp 𝕄)
    ⊢ Pipeline.arrBufs (Ix := Unit) (Name := ℕ) (U := UR sig nD τ) (Lvl := ℕ) spec0 c (fun b => Wx m c (Proc.devRef .tc b)) :=
  join m c (fun b => Wx m c (Proc.devRef .tc b)) _ (Wx_arr m c 0).symm (Wx_arr m c 1).symm (Wx_arr m c 2).symm (Wx_arr m c 3).symm (Wx_arr m c 4).symm

theorem hback (c : Dev nD) : (Pipeline.arrBufs (Ix := Unit) (Name := ℕ) (U := UR sig nD τ) (Lvl := ℕ) spec0 c (fun b => Wx m c (Proc.devRef .tc b)) : sProp 𝕄)
    ⊢ (dats m 0 c).arrays ((dats m 0 c).arrAt · cfg0.N) :=
  deal m c (fun b => Wx m c (Proc.devRef .tc b)) _ (Wx_arr m c 0).symm (Wx_arr m c 1).symm (Wx_arr m c 2).symm (Wx_arr m c 3).symm (Wx_arr m c 4).symm

/-! ## The run and the frame -/

set_option backward.isDefEq.respectTransparency.types false in
/-- Every weakly fair execution of @main terminates, each window's array ends at what the write-backs left and every
    other unscoped buffer at what the closing reshape makes of the exit contents. -/
theorem run_main : θ_run defs (onTc (τ := τ) (main (F := F))) (s₀ m ρ)
    (Pipeline.FramePost cfgs (dats m) 0 (fun c b => StableHlo.after (List.flatten [hostOps1]) (Wx m c) (Proc.devRef .tc b))) :=
  Pipeline.θ_run_frame_shared_around cfgs (dats m) (0 : Fin 1) cellOf_inj winFacts₀0 block_pos0 arr_whole0 stage_whole0 defs₀ Variants.none m ρ main
    (hbody := fun c => (body_obligation m c).loose) (howed := fun _ _ => rfl) (V₀ := V0 m) (Wx := Wx m) (opss := [hostOps1])
    (hsub := sfx_sub) (hfresh := sfx_fresh) (hkeep := sfx_keeps) (hmain := hmain m Variants.none)
    (hsplit := hsplit m) (hexit := hexit m) (hback := hback m) (hWx := hWx m) (hin := fun _ => .rfl) (hout := fun _ => .rfl)

/-- The frame: the run terminates and the three argument arrays end as they began. The two weight arrays are inputs
    of the pipeline, never written; the token matrix bypasses the region and the closing reshape does not write it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
    ((h c).2 main_arg0 (by decide)).trans (by
      show StableHlo.after (List.flatten [hostOps1]) (Wx m c) (Proc.devRef .tc main_arg0) = _
      simp only [hostOps1, List.flatten_cons, List.flatten_nil, List.append_nil]; after_results
      exact ((hWx m c) main_arg0 (by decide)).trans (V_main_arg0 m c)),
    ((h c).1 1).trans ((arrAt_in1 m c _).trans (V_main_arg1 m c)),
    ((h c).1 3).trans ((arrAt_in3 m c _).trans (V_main_arg2 m c))⟩) (run_main m ρ)

end Cert.KernelIdeal.FrameProof

end
-- ==== Proof.KI.Pieces.lean ====
/-
  What the body's stores leave in the output's staging buffer, read as values. At a point that opens a run the body
  stores the zero block and then, having read it back, the point's partial product added to it; at a later point it
  stores the partial product added to what the buffer held. Both are the one payload of the accumulating store, over
  the zero block in the first case and over the running contents in the second.
-/
import proofs.«148154_j45251775431031_1_alg».proof.Proof.KI.Launch
import Idealize.ShloMosaic.Lib.Pipeline.Value
import Idealize.ShloMosaic.Lib.ValueIdx

set_option maxRecDepth 16384

noncomputable section

open scoped BigOperators

namespace Cert.KernelIdeal.ValueProof

open Cert.KernelIdeal Cert.KernelIdeal.Gen Cert.KernelIdeal.FrameProof
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

theorem hz3 : (![0, 0, 0] : Fin 3 → Nat) = fun _ => 0 := funext fun a => by fin_cases a <;> rfl

/-- A later point: the accumulating store's payload over the running contents `xo4`. -/
theorem out_B (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : ¬cond0_0 i)
    (x0 : Vec F S1x512x2048 .f32) (x1 : Vec F S1x2048x256 .f32) (x2 : Vec F S1x2048x256 .f32) (x3 : Vec F S1x256x2048 .f32) (xo4 : Vec F S1x512x2048 .f32) :
    out0_B_4 c i arg3 harg3 arg4 harg4 arg5 harg5 arg6 harg6 arg7 harg7 hc0 x0 x1 x2 x3 xo4 = k0_pay2 x0 x1 x2 x3 xo4 := by
  unfold out0_B_4
  rw [View.read_writes_eq_canon _ _ _ (cover0_B_4 c i arg3 harg3 arg4 harg4 arg5 harg5 arg6 harg6 arg7 harg7 hc0 x0 x1 x2 x3 xo4)]
  unfold kernelRun0_B
  dsimp only
  sl_unfold_words
  rw [View.canon_unit_zero hz3]
  simp only [View.readAt_eq_ld, harg3.read_unread, harg4.read_unread, harg5.read_unread, harg6.read_unread, harg7.read_unread,
    View.ld_unit_zero (S := S1x512x2048) hz3, View.ld_unit_zero (S := S1x2048x256) hz3, View.ld_unit_zero (S := S1x256x2048) hz3]

/-- A run's first point: the same payload over the zero block just stored. -/
theorem out_A (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : cond0_0 i)
    (x0 : Vec F S1x512x2048 .f32) (x1 : Vec F S1x2048x256 .f32) (x2 : Vec F S1x2048x256 .f32) (x3 : Vec F S1x256x2048 .f32) :
    out0_A_4 c i arg3 harg3 arg4 harg4 arg5 harg5 arg6 harg6 arg7 harg7 hc0 x0 x1 x2 x3 = k0_pay2 x0 x1 x2 x3 (k0_pay1 (F := F)) := by
  unfold out0_A_4
  rw [View.read_writes_eq_canon _ _ _ (cover0_A_4 c i arg3 harg3 arg4 harg4 arg5 harg5 arg6 harg6 arg7 harg7 hc0 x0 x1 x2 x3)]
  unfold kernelRun0_A
  dsimp only
  sl_unfold_words
  rw [View.canon_cons_unit_zero (S := S1x512x2048) hz3, View.readCov_unit_zero (S := S1x512x2048) _ hz3]
  simp only [View.readAt_eq_ld, harg3.read_unread, harg4.read_unread, harg5.read_unread, harg6.read_unread,
    View.ld_unit_zero (S := S1x512x2048) hz3, View.ld_unit_zero (S := S1x2048x256) hz3, View.ld_unit_zero (S := S1x256x2048) hz3]

end Cert.KernelIdeal.ValueProof

end
-- ==== Proof.Spec.lean ====
/-
  The expert feed-forward network as one function of its three arrays, on the extended reals.

  Tokens are grouped by expert: x[e, r, ·] is token r of expert e, a row of 2048 hidden values. The fused projection
  w[e] has 8192 columns, the first 4096 the gate and the last 4096 the up projection; with g = x·w[e][·, j] and
  u = x·w[e][·, 4096 + j] the gated activation of intermediate channel j is u · (g · σ(g)), σ the logistic function; the
  result is the activations times the down projection d[e], a sum over the 4096 intermediate channels.

  The kernel does not form that sum at once: it walks the intermediate channels in sixteen tiles of 256, and keeps a
  running sum. `acc` is that running sum, tile by tile, and `acc_last`: after the sixteenth tile it is the whole sum.
  Only that a sum of extended reals may be regrouped is used, which holds whatever the summands.
-/
import Idealize.ShloMosaic.PureOps.Ideal
import Idealize.ShloMosaic.Lib.ValueIdx
import Mathlib.Algebra.BigOperators.Fin
import Mathlib.Algebra.BigOperators.Group.Finset.Basic

noncomputable section

open scoped BigOperators

namespace Cert.Ffn

open Idealize.ShloMosaic Idealize.ShloMosaic.ValueIdx

/-- Tokens by expert, [8, 1024, 2048]; the fused gate/up projection, [8, 2048, 8192]; the down projection, [8, 4096, 2048]. -/
abbrev SX : Shape := ⟨3, ![8, 1024, 2048]⟩
abbrev SW : Shape := ⟨3, ![8, 2048, 8192]⟩
abbrev SD : Shape := ⟨3, ![8, 4096, 2048]⟩

/-- Column `f` of the fused projection of token `r` of expert `e`. -/
def proj (x : FVec Ideal SX .f32) (w : FVec Ideal SW .f32) (e : Fin 8) (r : Fin 1024) (f : Fin 8192) : EReal :=
  ∑ h : Fin 2048, x (ix3 e r h) * w (ix3 e h f)

/-- Intermediate channel `j`'s gate column, and its up column, 4096 further on. -/
def gateCol (j : Fin 4096) : Fin 8192 := ⟨j.val, by have := j.isLt; omega⟩
def upCol (j : Fin 4096) : Fin 8192 := ⟨4096 + j.val, by have := j.isLt; omega⟩

/-- The gated activation of channel `j`: up · (gate · σ(gate)). -/
def act (x : FVec Ideal SX .f32) (w : FVec Ideal SW .f32) (e : Fin 8) (r : Fin 1024) (j : Fin 4096) : EReal :=
  proj x w e r (upCol j) * (proj x w e r (gateCol j) * Ideal.logistic (proj x w e r (gateCol j)))

/-- The network's result. -/
def out (x : FVec Ideal SX .f32) (w : FVec Ideal SW .f32) (d : FVec Ideal SD .f32) : FVec Ideal SX .f32 := fun i =>
  ∑ j : Fin 4096, act x w (i 0) (i 1) j * d (ix3 (i 0) j (i 2))

/-- Channel `l` of tile `n` (tiles counted modulo sixteen, so that the function is total). -/
def col (n : ℕ) (l : Fin 256) : Fin 4096 := ⟨n % 16 * 256 + l.val, by have := l.isLt; have := Nat.mod_lt n (show 0 < 16 by decide); omega⟩

/-- Tile `n`'s contribution to the result at `i`. -/
def tile (x : FVec Ideal SX .f32) (w : FVec Ideal SW .f32) (d : FVec Ideal SD .f32) (i : SX.Idx) (n : ℕ) : EReal :=
  ∑ l : Fin 256, act x w (i 0) (i 1) (col n l) * d (ix3 (i 0) (col n l) (i 2))

/-- The running sum after tiles 0 … n. -/
def acc (x : FVec Ideal SX .f32) (w : FVec Ideal SW .f32) (d : FVec Ideal SD .f32) (i : SX.Idx) : ℕ → EReal
  | 0 => tile x w d i 0
  | n + 1 => acc x w d i n + tile x w d i (n + 1)

theorem acc_zero (x : FVec Ideal SX .f32) (w : FVec Ideal SW .f32) (d : FVec Ideal SD .f32) (i : SX.Idx) :
    acc x w d i 0 = tile x w d i 0 := rfl
theorem acc_succ (x : FVec Ideal SX .f32) (w : FVec Ideal SW .f32) (d : FVec Ideal SD .f32) (i : SX.Idx) (n : ℕ) :
    acc x w d i (n + 1) = acc x w d i n + tile x w d i (n + 1) := rfl

/-- Tiles are counted modulo sixteen. -/
theorem col_mod (n : ℕ) (l : Fin 256) : col (n % 16) l = col n l := Fin.ext (by show n % 16 % 16 * 256 + l.val = n % 16 * 256 + l.val; rw [Nat.mod_mod])
theorem tile_mod (x : FVec Ideal SX .f32) (w : FVec Ideal SW .f32) (d : FVec Ideal SD .f32) (i : SX.Idx) (n : ℕ) :
    tile x w d i (n % 16) = tile x w d i n := by
  unfold tile; simp only [col_mod]

theorem acc_eq_sum (x : FVec Ideal SX .f32) (w : FVec Ideal SW .f32) (d : FVec Ideal SD .f32) (i : SX.Idx) (n : ℕ) :
    acc x w d i n = ∑ k ∈ Finset.range (n + 1), tile x w d i k := by
  induction n with
  | zero => simp [acc]
  | succ n ih => rw [acc, ih, Finset.sum_range_succ _ (n + 1)]

/-- A sum over the 4096 channels is the sum over the sixteen tiles of the sums over a tile's 256 channels. -/
theorem sum_tiles (f : Fin 4096 → EReal) : ∑ j : Fin 4096, f j = ∑ k ∈ Finset.range 16, ∑ l : Fin 256, f (col k l) := by
  rw [Finset.sum_range (fun k => ∑ l : Fin 256, f (col k l)), ← Finset.sum_product', Finset.univ_product_univ,
    ← Equiv.sum_comp (finProdFinEquiv (m := 16) (n := 256)) f]
  refine Finset.sum_congr rfl fun p _ => congrArg f (Fin.ext ?_)
  have h1 := p.1.isLt; have h2 := p.2.isLt
  show p.2.val + 256 * p.1.val = p.1.val % 16 * 256 + p.2.val
  rw [Nat.mod_eq_of_lt h1]; omega

/-- After the sixteenth tile the running sum is the result. -/
theorem acc_last (x : FVec Ideal SX .f32) (w : FVec Ideal SW .f32) (d : FVec Ideal SD .f32) (i : SX.Idx) :
    acc x w d i 15 = out x w d i := by
  rw [acc_eq_sum, out, sum_tiles]; rfl

end Cert.Ffn

end
-- ==== Proof.KI.Blocks.lean ====
/-
  The blocks a grid point works on, read off the arrays as the region finds them. Point t of the 8 × 2 × 16 grid is
  expert e = t / 32, token tile t / 16 mod 2 and channel tile n = t mod 16. Its token block is rows
  [512 · (t / 16 mod 2), +512) of expert e's tokens; its gate and up blocks are columns [256 n, +256) and
  [4096 + 256 n, +256) of the fused projection, both read off the one weight array; its down block is rows
  [256 n, +256) of the down projection. The output block sits where the token block does.
-/
import proofs.«148154_j45251775431031_1_alg».proof.Proof.KI.Launch
import proofs.«148154_j45251775431031_1_alg».proof.Proof.Spec
import Idealize.ShloMosaic.Lib.Pipeline.Value
import Idealize.ShloMosaic.Lib.ValueIdx

set_option maxRecDepth 16384

noncomputable section

open scoped BigOperators

namespace Cert.KernelIdeal.ValueProof

open Cert.KernelIdeal Cert.KernelIdeal.Gen Cert.KernelIdeal.FrameProof
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

theorem tlt (t : Fin cfg0.N) : t.val < 256 := lt_of_lt_of_eq t.isLt N_0

/-- The arrays as the region finds them, and a point's blocks, by their literal types. -/
abbrev xarr (c : Dev nD) : Vec F S8x1024x2048 .f32 := V m c main_v0
abbrev warr (c : Dev nD) : Vec F S8x2048x8192 .f32 := V m c main_arg1
abbrev darr (c : Dev nD) : Vec F S8x4096x2048 .f32 := V m c main_arg2
abbrev xblk (c : Dev nD) (t : Fin cfg0.N) : Vec F S1x512x2048 .f32 := iblk m c 0 t
abbrev gblk (c : Dev nD) (t : Fin cfg0.N) : Vec F S1x2048x256 .f32 := iblk m c 1 t
abbrev ublk (c : Dev nD) (t : Fin cfg0.N) : Vec F S1x2048x256 .f32 := iblk m c 2 t
abbrev dblk (c : Dev nD) (t : Fin cfg0.N) : Vec F S1x256x2048 .f32 := iblk m c 3 t

/-- A point's expert, and the token a row of its token tile is. -/
def eOf (t : Fin cfg0.N) : Fin 8 := ⟨t.val / 32, by have := tlt t; omega⟩
def rowOf (t : Fin cfg0.N) (r : Fin 512) : Fin 1024 := ⟨t.val / 16 % 2 * 512 + r.val, by have := r.isLt; omega⟩

/-- The printed index maps in closed form, decided over the grid. -/
theorem idx_facts : ∀ t : Fin cfg0.N,
    win0_0.index t (0 : Fin 3) = t.val / 32 ∧ win0_0.index t (1 : Fin 3) = t.val / 16 % 2 ∧ win0_0.index t (2 : Fin 3) = 0
    ∧ win0_1.index t (0 : Fin 3) = t.val / 32 ∧ win0_1.index t (1 : Fin 3) = 0 ∧ win0_1.index t (2 : Fin 3) = t.val % 16
    ∧ win0_2.index t (0 : Fin 3) = t.val / 32 ∧ win0_2.index t (1 : Fin 3) = 0 ∧ win0_2.index t (2 : Fin 3) = 16 + t.val % 16
    ∧ win0_3.index t (0 : Fin 3) = t.val / 32 ∧ win0_3.index t (1 : Fin 3) = t.val % 16 ∧ win0_3.index t (2 : Fin 3) = 0
    ∧ win0_4.index t (0 : Fin 3) = t.val / 32 ∧ win0_4.index t (1 : Fin 3) = t.val / 16 % 2 ∧ win0_4.index t (2 : Fin 3) = 0 :=
  (by decide +kernel : ∀ t : Fin grid0.N, _)

theorem xblk_apply (c : Dev nD) (t : Fin cfg0.N) (r : Fin 512) (h : Fin 2048) :
    xblk m c t (ix3 (0 : Fin 1) r h) = xarr m c (ix3 (eOf t) (rowOf t r) h) := by
  obtain ⟨e0, e1, e2, -⟩ := idx_facts t
  unfold xblk iblk
  rw [View.read_apply]
  show V m c main_v0 _ = V m c main_v0 _
  congr 1
  funext a; apply Fin.ext
  match a with
  | ⟨0, _⟩ => show win0_0.index t (0 : Fin 3) * 1 + 1 * (0 : ℕ) = t.val / 32; omega
  | ⟨1, _⟩ => show win0_0.index t (1 : Fin 3) * 512 + 1 * r.val = t.val / 16 % 2 * 512 + r.val; omega
  | ⟨2, _⟩ => show win0_0.index t (2 : Fin 3) * 2048 + 1 * h.val = h.val; omega

theorem gblk_apply (c : Dev nD) (t : Fin cfg0.N) (h : Fin 2048) (l : Fin 256) :
    gblk m c t (ix3 (0 : Fin 1) h l) = warr m c (ix3 (eOf t) h (Cert.Ffn.gateCol (Cert.Ffn.col t.val l))) := by
  obtain ⟨-, -, -, e0, e1, e2, -⟩ := idx_facts t
  unfold gblk iblk
  rw [View.read_apply]
  show V m c main_arg1 _ = V m c main_arg1 _
  congr 1
  funext a; apply Fin.ext
  match a with
  | ⟨0, _⟩ => show win0_1.index t (0 : Fin 3) * 1 + 1 * (0 : ℕ) = t.val / 32; omega
  | ⟨1, _⟩ => show win0_1.index t (1 : Fin 3) * 2048 + 1 * h.val = h.val; omega
  | ⟨2, _⟩ => show win0_1.index t (2 : Fin 3) * 256 + 1 * l.val = t.val % 16 * 256 + l.val; omega

theorem ublk_apply (c : Dev nD) (t : Fin cfg0.N) (h : Fin 2048) (l : Fin 256) :
    ublk m c t (ix3 (0 : Fin 1) h l) = warr m c (ix3 (eOf t) h (Cert.Ffn.upCol (Cert.Ffn.col t.val l))) := by
  obtain ⟨-, -, -, -, -, -, e0, e1, e2, -⟩ := idx_facts t
  unfold ublk iblk
  rw [View.read_apply]
  show V m c main_arg1 _ = V m c main_arg1 _
  congr 1
  funext a; apply Fin.ext
  match a with
  | ⟨0, _⟩ => show win0_2.index t (0 : Fin 3) * 1 + 1 * (0 : ℕ) = t.val / 32; omega
  | ⟨1, _⟩ => show win0_2.index t (1 : Fin 3) * 2048 + 1 * h.val = h.val; omega
  | ⟨2, _⟩ => show win0_2.index t (2 : Fin 3) * 256 + 1 * l.val = 4096 + (t.val % 16 * 256 + l.val); omega

theorem dblk_apply (c : Dev nD) (t : Fin cfg0.N) (l : Fin 256) (h : Fin 2048) :
    dblk m c t (ix3 (0 : Fin 1) l h) = darr m c (ix3 (eOf t) (Cert.Ffn.col t.val l) h) := by
  obtain ⟨-, -, -, -, -, -, -, -, -, e0, e1, e2, -⟩ := idx_facts t
  unfold dblk iblk
  rw [View.read_apply]
  show V m c main_arg2 _ = V m c main_arg2 _
  congr 1
  funext a; apply Fin.ext
  match a with
  | ⟨0, _⟩ => show win0_3.index t (0 : Fin 3) * 1 + 1 * (0 : ℕ) = t.val / 32; omega
  | ⟨1, _⟩ => show win0_3.index t (1 : Fin 3) * 256 + 1 * l.val = t.val % 16 * 256 + l.val; omega
  | ⟨2, _⟩ => show win0_3.index t (2 : Fin 3) * 2048 + 1 * h.val = h.val; omega

end Cert.KernelIdeal.ValueProof

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.KI.Payload.lean ====
/-
  The arithmetic of one grid point, read at an entry on the extended reals. From a [512, 2048] tile of tokens x, the
  [2048, 256] gate and up tiles wg, wu of the fused projection, and a [256, 2048] tile wd of the down projection, the
  accumulating store writes at (r, c) the running value plus the sum over the tile's 256 channels l of
  u · (g · σ(g)) · wd(l, c), where g = Σ_h x(r, h) · wg(h, l) and u = Σ_h x(r, h) · wu(h, l). The casts to bf16 are
  the identity here, each matrix product goes into a zero accumulator, and the leading unit axis of each block is
  dropped on loading and put back on storing.
-/
import proofs.«148154_j45251775431031_1_alg».proof.Proof.Gen.KernelIdeal.Skeleton
import proofs.«148154_j45251775431031_1_alg».proof.Proof.KI.Setup
import proofs.«148154_j45251775431031_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ValueProof

open Cert.KernelIdeal Cert.KernelIdeal.Gen Cert.KernelIdeal.FrameProof
open Idealize.ShloMosaic Idealize.ShloMosaic.TcCoe Idealize.ShloMosaic.Tactic Idealize.ShloMosaic.ValueIdx
open Idealize.SL Idealize.SL.Sem
open Idealize.ShloMosaic.Pipeline (Dat Cfg Window)

/-- The zero block. -/
theorem pay1_apply (j : S1x512x2048.Idx) : k0_pay1 (F := Ideal) j = 0 := by
  obtain ⟨u, r, c, rfl⟩ : ∃ (u : Fin 1) (r : Fin 512) (c : Fin 2048), j = ix3 u r c := ⟨j 0, j 1, j 2, eq_ix3 j⟩
  unfold k0_pay1
  rw [shapeCast_ab_1ab_apply]
  exact Ideal.ofBits_zero_f32

/-- The accumulating store's payload at an entry. -/
theorem pay2_apply (x0 : Vec Ideal S1x512x2048 .f32) (x1 x2 : Vec Ideal S1x2048x256 .f32) (x3 : Vec Ideal S1x256x2048 .f32)
    (xo : Vec Ideal S1x512x2048 .f32) (r : Fin 512) (c : Fin 2048) :
    k0_pay2 (F := Ideal) x0 x1 x2 x3 xo (ix3 (0 : Fin 1) r c)
      = xo (ix3 (0 : Fin 1) r c) + ∑ l : Fin 256,
          ((∑ h : Fin 2048, x0 (ix3 (0 : Fin 1) r h) * x2 (ix3 (0 : Fin 1) h l))
            * ((∑ h : Fin 2048, x0 (ix3 (0 : Fin 1) r h) * x1 (ix3 (0 : Fin 1) h l))
              * Ideal.logistic (∑ h : Fin 2048, x0 (ix3 (0 : Fin 1) r h) * x1 (ix3 (0 : Fin 1) h l))))
          * x3 (ix3 (0 : Fin 1) l c) := by
  unfold k0_pay2
  simp only [matmul]
  rw [shapeCast_ab_1ab_apply, addf_apply, shapeCast_1ab_ab_apply, Cert.PlainDot.matmul_zero_apply dot_S512x256_S256x2048_S512x2048_1_0_0_1_n_n rfl]
  refine congrArg (xo (ix3 (0 : Fin 1) r c) + ·) (Finset.sum_congr rfl fun l _ => ?_)
  rw [truncf_apply, truncf_apply, shapeCast_1ab_ab_apply, mulf_apply, mulf_apply,
    Cert.PlainDot.matmul_zero_apply dot_S512x2048_S2048x256_S512x256_1_0_0_1_n_n rfl, Cert.PlainDot.matmul_zero_apply dot_S512x2048_S2048x256_S512x256_1_0_0_1_n_n rfl]
  simp only [truncf_apply, shapeCast_1ab_ab_apply]
  have hlog : ∀ (v : FVec Ideal S512x256 .f32) (j : S512x256.Idx), logistic v j = Ideal.logistic (v j) := fun _ _ => rfl
  rw [hlog, Cert.PlainDot.matmul_zero_apply dot_S512x2048_S2048x256_S512x256_1_0_0_1_n_n rfl]
  simp only [truncf_apply, shapeCast_1ab_ab_apply]

end Cert.KernelIdeal.ValueProof

end
-- ==== Proof.KI.Accum.lean ====
/-
  The output block along a run, on the extended reals. By induction on the grid point, after the point at channel tile
  n of a run the output's staging buffer holds, at row r and column c, the running sum of the tiles 0 … n of the
  result at (expert, token, c): the first point of a run stores zero plus its tile, every later point adds its tile to
  what the point before left, and along a run the expert and the token tile do not move.
-/
import proofs.«148154_j45251775431031_1_alg».proof.Proof.KI.Pieces
import proofs.«148154_j45251775431031_1_alg».proof.Proof.KI.Blocks
import proofs.«148154_j45251775431031_1_alg».proof.Proof.KI.Payload
import proofs.«148154_j45251775431031_1_alg».proof.Proof.Spec

set_option maxRecDepth 16384

noncomputable section

open scoped BigOperators

namespace Cert.KernelIdeal.ValueProof

open Cert.KernelIdeal Cert.KernelIdeal.Gen Cert.KernelIdeal.FrameProof
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ)

/-- One point's store at an entry: the value it finds plus the point's tile of the result. -/
theorem point_eq (c : Dev nD) (t : Fin cfg0.N) (xo : Vec Ideal S1x512x2048 .f32) (r : Fin 512) (cc : Fin 2048) :
    k0_pay2 (F := Ideal) (xblk m c t) (gblk m c t) (ublk m c t) (dblk m c t) xo (ix3 (0 : Fin 1) r cc)
      = xo (ix3 (0 : Fin 1) r cc) + Cert.Ffn.tile (xarr m c) (warr m c) (darr m c) (ix3 (eOf t) (rowOf t r) cc) t.val := by
  rw [pay2_apply]
  refine congrArg (xo (ix3 (0 : Fin 1) r cc) + ·) (Finset.sum_congr rfl fun l _ => ?_)
  simp only [xblk_apply, gblk_apply, ublk_apply, dblk_apply]
  rfl

/-- The accumulation: what the output's staging buffer holds after a point is the running sum of the result's tiles. -/
theorem outsAt_eq (c : Dev nD) : ∀ (n : ℕ) (hn : n < cfg0.N) (r : Fin 512) (cc : Fin 2048),
    outsAt0 m c n hn (ix3 (0 : Fin 1) r cc)
      = Cert.Ffn.acc (xarr m c) (warr m c) (darr m c) (ix3 (eOf ⟨n, hn⟩) (rowOf ⟨n, hn⟩ r) cc) (n % 16)
  | 0, hn, r, cc => by
    refine (congrFun ((outsAt0_A m c ⟨0, hn⟩ rfl).trans (out_A c _ _ _ _ _ _ _ _ _ _ _ _ _ _ _ _)) (ix3 (0 : Fin 1) r cc)).trans ?_
    refine (point_eq m c ⟨0, hn⟩ (k0_pay1 (F := Ideal)) r cc).trans ?_
    rw [pay1_apply, zero_add]
    rfl
  | n + 1, hn, r, cc => by
    have hN : n + 1 < 256 := lt_of_lt_of_eq hn N_0
    by_cases h0 : (n + 1) % 16 = 0
    · refine (congrFun ((outsAt0_A m c ⟨n + 1, hn⟩ h0).trans (out_A c _ _ _ _ _ _ _ _ _ _ _ _ _ _ _ _)) (ix3 (0 : Fin 1) r cc)).trans ?_
      refine (point_eq m c ⟨n + 1, hn⟩ (k0_pay1 (F := Ideal)) r cc).trans ?_
      rw [pay1_apply, zero_add, h0, Cert.Ffn.acc_zero, ← Cert.Ffn.tile_mod _ _ _ _ (n + 1), h0]
    · refine (congrFun ((outsAt0_B m c ⟨n + 1, hn⟩ h0).trans (out_B c _ _ _ _ _ _ _ _ _ _ _ _ _ _ _ _ _)) (ix3 (0 : Fin 1) r cc)).trans ?_
      refine (point_eq m c ⟨n + 1, hn⟩ _ r cc).trans ?_
      have he : eOf ⟨n + 1, hn⟩ = eOf ⟨n, Nat.lt_of_succ_lt hn⟩ := Fin.ext (by show (n + 1) / 32 = n / 32; omega)
      have hr : rowOf ⟨n + 1, hn⟩ r = rowOf ⟨n, Nat.lt_of_succ_lt hn⟩ r := Fin.ext (by show (n + 1) / 16 % 2 * 512 + r.val = n / 16 % 2 * 512 + r.val; omega)
      have hm : (n + 1) % 16 = n % 16 + 1 := by omega
      show outsAt0 m c n _ (ix3 (0 : Fin 1) r cc) + _ = _
      rw [outsAt_eq c n _ r cc, he, hr, hm, Cert.Ffn.acc_succ, ← Cert.Ffn.tile_mod _ _ _ _ (n + 1), hm]

end Cert.KernelIdeal.ValueProof

end
-- ==== Proof.KI.Final.lean ====
/-
  The result array. The block written back after a run's sixteenth point holds, by the accumulation, the running sum of
  all sixteen tiles, which is the network's result at that block's entries; every entry of the [8, 1024, 2048] output
  lies in the block of exactly such a point (expert, token tile, last channel tile); so the output array ends holding
  the network's result, and the closing reshape lays it out as [8192, 2048], as the opening one laid the tokens out by
  expert.
-/
import proofs.«148154_j45251775431031_1_alg».proof.Proof.KI.Accum
import Idealize.ShloMosaic.Lib.Pipeline.Value
import Idealize.ShloMosaic.Lib.StableHlo.Run

set_option maxRecDepth 16384

noncomputable section

open scoped BigOperators

namespace Cert.KernelIdeal.ValueProof

open Cert.KernelIdeal Cert.KernelIdeal.Gen Cert.KernelIdeal.FrameProof
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The network's result on the arrays as the region finds them. -/
abbrev G (c : Dev nD) : Buf (Elt Ideal) ((c : Thread nD τ).loc main_v1) := Cert.Ffn.out (xarr m c) (warr m c) (darr m c)

/-- After a run's last point the output's staging buffer holds the result at the block's entries. -/
theorem last_eq (c : Dev nD) (t : Fin cfg0.N) (h15 : t.val % 16 = 15) (j : S1x512x2048.Idx) :
    outsAt0 m c t.val t.isLt j = G m c (ix3 (eOf t) (rowOf t (j 1)) (j 2)) := by
  obtain ⟨u, r, cc, rfl⟩ : ∃ (u : Fin 1) (r : Fin 512) (cc : Fin 2048), j = ix3 u r cc := ⟨j 0, j 1, j 2, eq_ix3 j⟩
  obtain rfl : u = 0 := Subsingleton.elim u 0
  refine (outsAt_eq m c t.val t.isLt r cc).trans ?_
  rw [h15, Cert.Ffn.acc_last]

/-- What a run's last point writes back is its block of the result. -/
theorem flushed_eq (c : Dev nD) (t : Fin cfg0.N) (hf : (cfg0.win 4).flush t = true) :
    (dats m 0 c).flushed 4 t = ((cfg0.win 4).blk t).view.read (Elt Ideal) (G m c) := by
  have h15 : t.val % 16 = 15 := (flush0_4 t).mp hf
  obtain ⟨-, -, -, -, -, -, -, -, -, -, -, -, e0, e1, e2⟩ := idx_facts t
  show (cfg0.win 4).cut (grid0.coords t) ((dats m 0 c).after 4 t) = _
  rw [after0_4]
  funext j
  show outsAt0 m c t.val t.isLt j = G m c (((cfg0.win 4).blk t).view.emb j)
  refine (last_eq m c t h15 j).trans (congrArg (G m c) (funext fun a => Fin.ext ?_))
  have hj0 : (j 0).val < 1 := (j 0).isLt
  match a with
  | ⟨0, _⟩ => show t.val / 32 = win0_4.index t (0 : Fin 3) * 1 + 1 * (j 0).val; omega
  | ⟨1, _⟩ => show t.val / 16 % 2 * 512 + (j 1).val = win0_4.index t (1 : Fin 3) * 512 + 1 * (j 1).val; omega
  | ⟨2, _⟩ => show (j 2).val = win0_4.index t (2 : Fin 3) * 2048 + 1 * (j 2).val; omega

/-- An entry of the output array is in a point's block iff each coordinate is in the block's range. -/
theorem mem_blk4 (t : Fin cfg0.N) (i : S8x1024x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v1).slice (win0_4.rect t)).set ↔ _
  rw [View.set_slice_whole, Rect.mem_set_unit]
  exact Iff.rfl

/-- Every entry of the output array is written back by the last point of its (expert, token tile) run. -/
theorem covered (i : S8x1024x2048.Idx) : ∃ t : Fin cfg0.N, (cfg0.win 4).flush t = true ∧ i ∈ ((cfg0.win 4).blk t).view.set := by
  have h0 : (i 0).val < 8 := (i 0).isLt
  have h1 : (i 1).val < 1024 := (i 1).isLt
  have h2 : (i 2).val < 2048 := (i 2).isLt
  have hN : cfg0.N = 256 := N_0
  obtain ⟨t, ht⟩ : ∃ t : Fin cfg0.N, t.val = (i 0).val * 32 + (i 1).val / 512 * 16 + 15 := ⟨⟨(i 0).val * 32 + (i 1).val / 512 * 16 + 15, by rw [hN]; omega⟩, rfl⟩
  obtain ⟨-, -, -, -, -, -, -, -, -, -, -, -, e0, e1, e2⟩ := idx_facts t
  refine ⟨t, (flush0_4 t).mpr (by omega), ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- The output array after the run is the network's result. -/
theorem final_o (c : Dev nD) : (dats m 0 c).arrAt 4 cfg0.N = G m c :=
  (dats m 0 c).arrAt_eq_of_cover 4 (G m c) (fun t hf => flushed_eq m c t hf) covered

/-- The tokens by expert, as the region finds them: the opening reshape of the token matrix. -/
theorem V_main_v0 (c : Dev nD) :
    V m c main_v0 = shapeCast S8x1024x2048 (m ((c : Thread nD τ).loc main_arg0)) shapeCasts_S8192x2048_S8x1024x2048 := by
  dsimp only [V, V0]; simp only [hostOps0, List.flatten_cons, List.flatten_nil, List.append_nil]; after_results; rfl

/-- The run, read: the result buffer holds the network's result on the reshaped tokens, reshaped back; the arguments
    are unchanged. -/
theorem run : θ_run defs (onTc (τ := τ) (main (F := Ideal))) ⟨m, fun _ => 0, ρ⟩ fun r => ∀ c : Dev nD,
      r.2.mem ((c : Thread nD τ).loc main_v2)
        = shapeCast S8192x2048 (Cert.Ffn.out (shapeCast S8x1024x2048 (m ((c : Thread nD τ).loc main_arg0)) shapeCasts_S8192x2048_S8x1024x2048)
            (m ((c : Thread nD τ).loc main_arg1)) (m ((c : Thread nD τ).loc main_arg2))) shapeCasts_S8x1024x2048_S8192x2048
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨
    ((h c).2 main_v2 (by decide)).trans (by
      show StableHlo.after (List.flatten [hostOps1]) (Wx m c) (Proc.devRef .tc main_v2) = _
      simp only [hostOps1, List.flatten_cons, List.flatten_nil, List.append_nil]; after_results
      rw [show Wx m c (Proc.devRef .tc main_v1) = G m c from (Wx_arr m c 4).trans (final_o m c)]
      show shapeCast S8192x2048 (Cert.Ffn.out (V m c main_v0) (V m c main_arg1) (V m c main_arg2)) _ = _
      rw [V_main_v0, V_main_arg1, V_main_arg2]),
    ((h c).2 main_arg0 (by decide)).trans (by
      show StableHlo.after (List.flatten [hostOps1]) (Wx m c) (Proc.devRef .tc main_arg0) = _
      simp only [hostOps1, List.flatten_cons, List.flatten_nil, List.append_nil]; after_results
      exact ((hWx m c) main_arg0 (by decide)).trans (V_main_arg0 m c)),
    ((h c).1 1).trans ((arrAt_in1 m c _).trans (V_main_arg1 m c)),
    ((h c).1 3).trans ((arrAt_in3 m c _).trans (V_main_arg2 m c))⟩) (run_main m ρ)

end Cert.KernelIdeal.ValueProof

end
-- ==== Proof.RefValue.lean ====
/-
  The reference's result as the network's function of its arrays. Read one operation at a time (the generated reading
  of the run), entry (e, r, c) of the reference's [8, 1024, 2048] stage is the sum over the 4096 intermediate channels k
  of up · (gate · 1 / (1 + exp(−gate))) times the down projection at (e, k, c), where gate and up are columns k and
  4096 + k of the batched product of the tokens with the fused projection: the two slices of that product are its
  first and last 4096 columns. On the extended reals 1 / (1 + exp(−g)) is the logistic function by definition, and the
  literal 1.0 is the number one, so this is the specification's function, entry by entry.
-/
import proofs.«148154_j45251775431031_1_alg».proof.Proof.Gen.ReferenceIdeal.Read
import proofs.«148154_j45251775431031_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The word of 1.0 is the number one. -/
theorem one_f32 : FloatOps.ofBits (F := Ideal) .f32 0x3F800000#32 = (1 : EReal) := by
  show Ideal.ofBits .f32 0x3F800000#32 = 1
  simp [Ideal.ofBits, Ideal.ieee, -EReal.coe_mul]; norm_num

/-- The reference's stage before its closing reshape is the network's result on the reshaped tokens. -/
theorem ref_eq (x0 : (⟨S8192x2048, .f32⟩ : BufTy).Contents (Elt Ideal)) (x1 : (⟨S8x2048x8192, .f32⟩ : BufTy).Contents (Elt Ideal))
    (x2 : (⟨S8x4096x2048, .f32⟩ : BufTy).Contents (Elt Ideal)) :
    val_main_v6 (F := Ideal) x0 x1 x2 = Cert.Ffn.out (val_main_v0 (F := Ideal) x0) x1 x2 := by
  funext i
  obtain ⟨e, r, c, rfl⟩ : ∃ (e : Fin 8) (r : Fin 1024) (c : Fin 2048), i = ix3 e r c := ⟨i 0, i 1, i 2, eq_ix3 i⟩
  rw [val_main_v6_apply]
  unfold Cert.Ffn.out
  refine Finset.sum_congr rfl fun k _ => ?_
  have hl : lidx_main_v6 (ix3 e r c) k = ix3 e r k := funext fun a => Fin.ext (by match a with | ⟨0, _⟩ => rfl | ⟨1, _⟩ => rfl | ⟨2, _⟩ => rfl)
  have hr : ridx_main_v6 (ix3 e r c) k = ix3 e k c := funext fun a => Fin.ext (by match a with | ⟨0, _⟩ => rfl | ⟨1, _⟩ => rfl | ⟨2, _⟩ => rfl)
  rw [hl, hr]
  refine congrArg (· * x2 (ix3 e k c)) ?_
  rw [val_main_v5_apply, val_main_v4_apply, val_main_call0_v5_apply, val_main_call0_v4_apply, val_main_call0_cst_0_apply,
    val_main_call0_v3_apply, val_main_call0_v2_apply, val_main_call0_cst_apply, val_main_call0_v1_apply, val_main_call0_v0_apply,
    val_main_v3_apply, val_main_v2_apply, val_main_v1_apply, val_main_v1_apply]
  have hgl : ∀ h : Fin 2048, lidx_main_v1 (idx_main_v2 (ix3 e r k)) h = ix3 e r h := fun h =>
    funext fun a => Fin.ext (by match a with | ⟨0, _⟩ => rfl | ⟨1, _⟩ => rfl | ⟨2, _⟩ => rfl)
  have hgr : ∀ h : Fin 2048, ridx_main_v1 (idx_main_v2 (ix3 e r k)) h = ix3 e h (Cert.Ffn.gateCol k) := fun h =>
    funext fun a => Fin.ext (by match a with | ⟨0, _⟩ => rfl | ⟨1, _⟩ => rfl | ⟨2, _⟩ => rfl)
  have hul : ∀ h : Fin 2048, lidx_main_v1 (idx_main_v3 (ix3 e r k)) h = ix3 e r h := fun h =>
    funext fun a => Fin.ext (by match a with | ⟨0, _⟩ => rfl | ⟨1, _⟩ => rfl | ⟨2, _⟩ => rfl)
  have hur : ∀ h : Fin 2048, ridx_main_v1 (idx_main_v3 (ix3 e r k)) h = ix3 e h (Cert.Ffn.upCol k) := fun h =>
    funext fun a => Fin.ext (by match a with | ⟨0, _⟩ => rfl | ⟨1, _⟩ => rfl | ⟨2, _⟩ => rfl)
  simp only [hgl, hgr, hul, hur, one_f32, Ideal.hostDivf_def, Ideal.addf_def, Ideal.hostUnary_exp_def, Ideal.hostNegf_def, Ideal.negf_def, Ideal.mulf_def]
  rfl

end Cert.ReferenceIdeal.RefValue

end
-- ==== Proof.lean ====
/-
  The certificate of the expert feed-forward kernel against its jnp reference.

  The kernel computes, for each of eight experts, tokens · fused projection, the gated activation up · (gate · σ(gate)),
  and the activations · down projection, walking the 4096 intermediate channels in sixteen tiles and accumulating the
  partial products in its output block; the reference computes the same with two batched products. On the extended
  reals the casts to bf16 are the identity, a matrix product into a zero accumulator is the plain sum of products,
  1 / (1 + exp(−g)) is the logistic function, and the sum over the channels may be taken tile by tile: the two results
  are one function of the arguments (no finiteness of the inputs is used). The ideal pass rewrote nothing, so the
  idealization is the program's own text. The frames: the kernel's weight array of gate and up columns is read through
  two windows, which share it half and half; the reference is a straight line of host operations.
-/
import proofs.«148154_j45251775431031_1_alg».proof.Defs
import proofs.«148154_j45251775431031_1_alg».proof.Proof.Gen.Kernel
import proofs.«148154_j45251775431031_1_alg».proof.Proof.Gen.KernelIdeal
import proofs.«148154_j45251775431031_1_alg».proof.Proof.Gen.ReferenceIdeal
import proofs.«148154_j45251775431031_1_alg».proof.Proof.Gen.Pre_finite_inputs
import proofs.«148154_j45251775431031_1_alg».proof.Proof.K.Launch
import proofs.«148154_j45251775431031_1_alg».proof.Proof.KI.Final
import proofs.«148154_j45251775431031_1_alg».proof.Proof.RefValue
import Idealize.ShloMosaic.Adequacy
import Idealize.ShloMosaic.Init

noncomputable section

namespace Cert.Proof

open Idealize.ShloMosaic Idealize.SL.Sem

/-- The word-level kernel runs to the end and leaves its arguments as they were. -/
theorem frame_k : Cert.frame_Kernel := fun m ρ _ => Cert.Kernel.FrameProof.frame m ρ
/-- So does its idealization. -/
theorem frame_ki : Cert.frame_KernelIdeal := fun m ρ _ => Cert.KernelIdeal.FrameProof.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the network's result on the tokens laid out by expert, laid out flat again. -/
theorem algebraic : Cert.algebraic_KernelIdeal_ReferenceIdeal := by
  intro m ρ m' ρ' _ hagree
  refine ⟨_, Cert.KernelIdeal.ValueProof.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq]
  unfold Cert.ReferenceIdeal.Read.val_main_v7
  rw [Cert.ReferenceIdeal.RefValue.ref_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
